-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512 : Shape := ⟨4, ![16, 1, 512, 512]⟩
abbrev S16x200000x6 : Shape := ⟨3, ![16, 200000, 6]⟩
abbrev S16 : Shape := ⟨1, ![16]⟩
abbrev S16x200000x4 : Shape := ⟨3, ![16, 200000, 4]⟩
abbrev S_ : Shape := ⟨0, ![]⟩

class Facts : Prop where
  slices_S16x200000x6_S16x200000x4_0_0_0 : S16x200000x6.Slices ![0, 0, 0] S16x200000x4
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel
  bcast_S_S16x200000x6 : S_.BroadcastsInDim S16x200000x6 (![] : Fin 0 → Fin S16x200000x6.rank)
  reducesTo_S16x200000x6_S_d0_1_2 : S16x200000x6.ReducesTo [0, 1, 2] S_
  bcast_S_S16x200000x4 : S_.BroadcastsInDim S16x200000x4 (![] : Fin 0 → Fin S16x200000x4.rank)
  reducesTo_S16x200000x4_S_d0_1_2 : S16x200000x4.ReducesTo [0, 1, 2] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S16x1x512x512 .f32) (main_arg1 : FVec F S16x200000x6 .f32) (main_arg2 : IVec S16 32) : IVec S_ 1 :=
  let main_v0 : FVec F S16x200000x4 .f32 := (extractStridedSlice S16x200000x4 ![0, 0, 0] · slices_S16x200000x6_S16x200000x4_0_0_0) main_arg1
  let main_v1 : IVec S16x200000x4 32 := fptosi 32 main_v0
  let main_v2 : FVec F S16x1x512x512 .f32 := Host.absf main_arg0
  let main_cst : FVec F S_ .f32 := constant S_ .f32 0x7F800000#32
  let main_v3 : FVec F S16x1x512x512 .f32 := broadcastInDim S16x1x512x512 ![] bcast_S_S16x1x512x512 main_cst
  let main_v4 : IVec S16x1x512x512 1 := cmpf .olt main_v2 main_v3
  let main_c : IVec S_ 1 := constantI S_ 1 1#1
  let main_v5 : IVec S_ 1 := (fun x v => Host.reduce IntOp.andi x v reducesTo_S16x1x512x512_S_d0_1_2_3 h_S_) main_v4 main_c
  let main_v6 : FVec F S16x200000x6 .f32 := Host.absf main_arg1
  let main_cst_0 : FVec F S_ .f32 := constant S_ .f32 0x7F800000#32
  let main_v7 : FVec F S16x200000x6 .f32 := broadcastInDim S16x200000x6 ![] bcast_S_S16x200000x6 main_cst_0
  let main_v8 : IVec S16x200000x6 1 := cmpf .olt main_v6 main_v7
  let main_c_1 : IVec S_ 1 := constantI S_ 1 1#1
  let main_v9 : IVec S_ 1 := (fun x v => Host.reduce IntOp.andi x v reducesTo_S16x200000x6_S_d0_1_2 h_S_) main_v8 main_c_1
  let main_v10 : IVec S_ 1 := andi main_v5 main_v9
  let main_c_2 : IVec S_ 32 := constantI S_ 32 0#32
  let main_v11 : IVec S16x200000x4 32 := broadcastInDim S16x200000x4 ![] bcast_S_S16x200000x4 main_c_2
  let main_v12 : IVec S16x200000x4 1 := cmpi .sge main_v1 main_v11
  let main_c_3 : IVec S_ 32 := constantI S_ 32 512#32
  let main_v13 : IVec S16x200000x4 32 := broadcastInDim S16x200000x4 ![] bcast_S_S16x200000x4 main_c_3
  let main_v14 : IVec S16x200000x4 1 := cmpi .slt main_v1 main_v13
  let main_v15 : IVec S16x200000x4 1 := andi main_v12 main_v14
  let main_c_4 : IVec S_ 1 := constantI S_ 1 1#1
  let main_v16 : IVec S_ 1 := (fun x v => Host.reduce IntOp.andi x v reducesTo_S16x200000x4_S_d0_1_2 h_S_) main_v15 main_c_4
  fn_part1 (F := F) main_v10 main_v16
-- ==== Kernel.lean ====
abbrev S16x1x512x512 : Shape := ⟨4, ![16, 1, 512, 512]⟩
abbrev S16x200000x6 : Shape := ⟨3, ![16, 200000, 6]⟩
abbrev S16 : Shape := ⟨1, ![16]⟩
abbrev S16x512x512 : Shape := ⟨3, ![16, 512, 512]⟩
abbrev S1x512x512 : Shape := ⟨3, ![1, 512, 512]⟩
abbrev S1x1000x6 : Shape := ⟨3, ![1, 1000, 6]⟩
abbrev S1000x6 : Shape := ⟨2, ![1000, 6]⟩
abbrev S512x512 : Shape := ⟨2, ![512, 512]⟩
abbrev S1000x1 : Shape := ⟨2, ![1000, 1]⟩
abbrev S1000 : Shape := ⟨1, ![1000]⟩
abbrev S1000x512 : Shape := ⟨2, ![1000, 512]⟩
abbrev S1x1000 : Shape := ⟨2, ![1, 1000]⟩
abbrev S1 : Shape := ⟨1, ![1]⟩
abbrev S1x1 : Shape := ⟨2, ![1, 1]⟩
abbrev S1x16 : Shape := ⟨2, ![1, 16]⟩
abbrev S_ : Shape := ⟨0, ![]⟩

abbrev nBuf : Space → Nat
  | .hbm => 9
  | .vmem => 7
  | .smem => 1
  | _ => 0

abbrev bufTy : (tb : Table) → Fin (tcTables nBuf tb) → BufTy
  | .hbm, ⟨0, _⟩ => ⟨S16x1x512x512, .f32⟩
  | .hbm, ⟨1, _⟩ => ⟨S16x200000x6, .f32⟩
  | .hbm, ⟨2, _⟩ => ⟨S16x512x512, .f32⟩
  | .hbm, ⟨3, _⟩ => ⟨S16x512x512, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S1x1000x6, .f32⟩
  | .local _ .vmem, ⟨3, _⟩ => ⟨S1x1000x6, .f32⟩
  | .local _ .vmem, ⟨4, _⟩ => ⟨S16, .f32⟩
  | .local _ .vmem, ⟨5, _⟩ => ⟨S16, .f32⟩
  | .local _ .vmem, ⟨6, _⟩ => ⟨S16, .f32⟩
  | .local _ .smem, ⟨0, _⟩ => ⟨S16, .i32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 200], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v76 : Index := Scalar.indexCast arg0
  ![v76.toNat]
def k0_cond2 (i : grid0.Coords) : BitVec 1 :=
  let arg0 : BitVec 32 := BitVec.ofNat 32 (i 0).val
  let c15_i32 : BitVec 32 := 15#32
  let v111 : BitVec 1 := Scalar.cmpi .eq arg0 c15_i32
  let arg1 : BitVec 32 := BitVec.ofNat 32 (i 1).val
  let c199_i32 : BitVec 32 := 199#32
  let v112 : BitVec 1 := Scalar.cmpi .eq arg1 c199_i32
  let v113 : BitVec 1 := Scalar.andi v111 v112
  let v114 : BitVec 32 := Scalar.extui v113
  let c0_i32_22 : BitVec 32 := 0#32
  let v115 : BitVec 1 := Scalar.cmpi .ne v114 c0_i32_22
  v115

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  shapeCasts_S16x1x512x512_S16x512x512 : S16x1x512x512.ShapeCasts S16x512x512
  transposes_S16x512x512_S16x512x512_0_2_1 : S16x512x512.Transposes [0, 2, 1] S16x512x512
  inb_S16_S16_0 : ∀ a, (![0] : Fin 1 → Nat) a + S16.size a ≤ S16.size a
  h_S16 : 0 < S16.numel
  shapeCasts_S16_S16 : S16.ShapeCasts S16
  inb_S1x1000x6_S1x1000x6_0_0_0 : ∀ a, (![0, 0, 0] : Fin 3 → Nat) a + S1x1000x6.size a ≤ S1x1000x6.size a
  h_S1x1000x6 : 0 < S1x1000x6.numel
  shapeCasts_S1x1000x6_S1000x6 : S1x1000x6.ShapeCasts S1000x6
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  slices_S1000x6_o0_0_S1000x1 : S1000x6.Slices ![0, 0] S1000x1
  shapeCasts_S1000x1_S1000 : S1000x1.ShapeCasts S1000
  slices_S1000x6_o0_1_S1000x1 : S1000x6.Slices ![0, 1] S1000x1
  slices_S1000x6_o0_2_S1000x1 : S1000x6.Slices ![0, 2] S1000x1
  slices_S1000x6_o0_3_S1000x1 : S1000x6.Slices ![0, 3] S1000x1
  slices_S1000x6_o0_4_S1000x1 : S1000x6.Slices ![0, 4] S1000x1
  slices_S1000x6_o0_5_S1000x1 : S1000x6.Slices ![0, 5] S1000x1
  iota_S1000x512_d1_w32 : S1000x512.Iotas .tc 32 [1]
  shapeCasts_S1000_S1000x1 : S1000.ShapeCasts S1000x1
  broadcasts_S1000x1_S1000x512 : S1000x1.Broadcasts S1000x512
  natLt_1_32 : 1 < 32
  reduces_S1000x512_S1000 : S1000x512.Reduces [1] S1000
  iota_S1x1000_d1_w32 : S1x1000.Iotas .tc 32 [1]
  shapeCasts_S1x1000_S1000 : S1x1000.ShapeCasts S1000
  numel1_S1 : S1.numel = 1
  shapeCasts_S1000_S1x1000 : S1000.ShapeCasts S1x1000
  inpos_S1x1_p0_0 : ∀ a, (![0, 0] : Fin 2 → Nat) a < S1x1.size a
  iota_S1x16_d1_w32 : S1x16.Iotas .tc 32 [1]
  shapeCasts_S1x16_S16 : S1x16.ShapeCasts S16
  reducesTo_S16_S_d0 : S16.ReducesTo [0] S_
  h_S_ : 0 < S_.numel
  dot_S1000x512_S512x512_S1000x512_1_0_0_1_n_n_wf : DotDims.WF S1000x512 S512x512 S1000x512 [1] [0] [0] [1] [] []
  dot_S1x1000_S1000x1_S1x1_1_0_0_1_n_n_wf : DotDims.WF S1x1000 S1000x1 S1x1 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x512x512.size a
  hwx0_0 : ∀ i : grid0.Coords, EltTy.bits .f32 = 32 ∨ (Rect.block (s := S16x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x6.size a ≤ S16x200000x6.size a
  hwx0_1 : ∀ i : grid0.Coords, EltTy.bits .f32 = 32 ∨ (Rect.block (s := S16x200000x6) S1x1000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1x1000_S1000x1_S1x1_1_0_0_1_n_n : DotDims S1x1000 S1000x1 S1x1 where
  lhsContracting := [1]
  rhsContracting := [0]
  lhsNonContracting := [0]
  rhsNonContracting := [1]
  lhsBatch := []
  rhsBatch := []
  wf := dot_S1x1000_S1000x1_S1x1_1_0_0_1_n_n_wf

abbrev spec0_0 : Pipeline.WinSpec sig grid0.rank :=
  Pipeline.WinSpec.ofSpec (Memref.whole main_v1) S1x512x512.size reads0_0 false false 2 stage0_0 sem0_0 nbuf0_0 hstage0_0

abbrev spec0_1 : Pipeline.WinSpec sig grid0.rank :=
  Pipeline.WinSpec.ofSpec (Memref.whole main_arg1) S1x1000x6.size reads0_1 false false 2 stage0_1 sem0_1 nbuf0_1 hstage0_1

abbrev spec0_2 : Pipeline.WinSpec sig grid0.rank :=
  Pipeline.WinSpec.ofSpec (Memref.whole main_v2) S16.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16x1x512x512 : Shape := ⟨4, ![16, 1, 512, 512]⟩
abbrev S16x200000x6 : Shape := ⟨3, ![16, 200000, 6]⟩
abbrev S16 : Shape := ⟨1, ![16]⟩
abbrev S16x200000x4 : Shape := ⟨3, ![16, 200000, 4]⟩
abbrev S16x200000x1 : Shape := ⟨3, ![16, 200000, 1]⟩
abbrev S16x200000 : Shape := ⟨2, ![16, 200000]⟩
abbrev S16x512x512 : Shape := ⟨3, ![16, 512, 512]⟩
abbrev S16x1 : Shape := ⟨2, ![16, 1]⟩
abbrev S_ : Shape := ⟨0, ![]⟩
abbrev S16x200000x3 : Shape := ⟨3, ![16, 200000, 3]⟩
abbrev S200000 : Shape := ⟨1, ![200000]⟩
abbrev S1x200000 : Shape := ⟨2, ![1, 200000]⟩

abbrev nBuf : Space → Nat
  | .hbm => 118
  | .vmem => 0
  | .smem => 0
  | _ => 0

abbrev bufTy : (tb : Table) → Fin (tcTables nBuf tb) → BufTy
  | .hbm, ⟨0, _⟩ => ⟨S16x1x512x512, .f32⟩
  | .hbm, ⟨1, _⟩ => ⟨S16x200000x6, .f32⟩
  | .hbm, ⟨2, _⟩ => ⟨S16, .i32⟩
  | .hbm, ⟨3, _⟩ => ⟨S16x200000x4, .f32⟩
  | .hbm, ⟨4, _⟩ => ⟨S16x200000x4, .i32⟩
  | .hbm, ⟨5, _⟩ => ⟨S16x200000x1, .i32⟩
  | .hbm, ⟨6, _⟩ => ⟨S16x200000, .i32⟩
  | .hbm, ⟨7, _⟩ => ⟨S16x200000x1, .i32⟩
  | .hbm, ⟨8, _⟩ => ⟨S16x200000, .i32⟩
  | .hbm, ⟨9, _⟩ => ⟨S16x200000x1, .i32⟩
  | .hbm, ⟨10, _⟩ => ⟨S16x200000, .i32⟩
  | .hbm, ⟨11, _⟩ => ⟨S16x200000x1, .i32⟩
  | .hbm, ⟨12, _⟩ => ⟨S16x200000, .i32⟩
  | .hbm, ⟨13, _⟩ => ⟨S16x200000x1, .f32⟩
  | .hbm, ⟨14, _⟩ => ⟨S16x200000, .f32⟩
  | .hbm, ⟨15, _⟩ => ⟨S16x200000, .i32⟩
  | .hbm, ⟨16, _⟩ => ⟨S16x200000x1, .f32⟩
  | .hbm, ⟨17, _⟩ => ⟨S16x200000, .f32⟩
  | .hbm, ⟨18, _⟩ => ⟨S16x512x512, .f32⟩
  | .hbm, ⟨19, _⟩ => ⟨S16, .i32⟩
  | .hbm, ⟨20, _⟩ => ⟨S16x1, .i32⟩
  | .hbm, ⟨21, _⟩ => ⟨S_, .i32⟩
  | .hbm, ⟨22, _⟩ => ⟨S16x1, .i32⟩
  | .hbm, ⟨23, _⟩ => ⟨S16x1, .i1⟩
  | .hbm, ⟨24, _⟩ => ⟨S_, .i32⟩
  | .hbm, ⟨25, _⟩ => ⟨S16x1, .i32⟩
  | .hbm, ⟨26, _⟩ => ⟨S16x1, .i32⟩
  | .hbm, ⟨27, _⟩ => ⟨S16x1, .i32⟩
  | .hbm, ⟨28, _⟩ => ⟨S_, .i32⟩
  | .hbm, ⟨29, _⟩ => ⟨S16x200000, .i32⟩
  | .hbm, ⟨30, _⟩ => ⟨S16x200000, .i1⟩
  | .hbm, ⟨31, _⟩ => ⟨S_, .i32⟩
  | .hbm, ⟨32, _⟩ => ⟨S16x200000, .i32⟩
  | .hbm, ⟨33, _⟩ => ⟨S16x200000, .i32⟩
  | .hbm, ⟨34, _⟩ => ⟨S16x200000, .i32⟩
  | .hbm, ⟨35, _⟩ => ⟨S_, .i32⟩
  | .hbm, ⟨36, _⟩ => ⟨S16x200000, .i32⟩
  | .hbm, ⟨37, _⟩ => ⟨S16x200000, .i1⟩
  | .hbm, ⟨38, _⟩ => ⟨S_, .i32⟩
  | .hbm, ⟨39, _⟩ => ⟨S16x200000, .i32⟩
  | .hbm, ⟨40, _⟩ => ⟨S16x200000, .i32⟩
  | .hbm, ⟨41, _⟩ => ⟨S16x200000, .i32⟩
  | .hbm, ⟨42, _⟩ => ⟨S16x200000, .i32⟩
  | .hbm, ⟨43, _⟩ => ⟨S16x200000x1, .i32⟩
  | .hbm, ⟨44, _⟩ => ⟨S16x200000x1, .i32⟩
  | .hbm, ⟨45, _⟩ => ⟨S16x200000x1, .i32⟩
  | .hbm, ⟨46, _⟩ => ⟨S16x200000x3, .i32⟩
  | .hbm, ⟨47, _⟩ => ⟨S16x200000, .f32⟩
  | .hbm, ⟨48, _⟩ => ⟨S_, .i32⟩
  | .hbm, ⟨49, _⟩ => ⟨S16x1, .i32⟩
  | .hbm, ⟨50, _⟩ => ⟨S16x1, .i1⟩
  | .hbm, ⟨51, _⟩ => ⟨S_, .i32⟩
  | .hbm, ⟨52, _⟩ => ⟨S16x1, .i32⟩
  | .hbm, ⟨53, _⟩ => ⟨S16x1, .i32⟩
  | .hbm, ⟨54, _⟩ => ⟨S16x1, .i32⟩
  | .hbm, ⟨55, _⟩ => ⟨S_, .i32⟩
  | .hbm, ⟨56, _⟩ => ⟨S16x200000, .i32⟩
  | .hbm, ⟨57, _⟩ => ⟨S16x200000, .i1⟩
  | .hbm, ⟨58, _⟩ => ⟨S_, .i32⟩
  | .hbm, ⟨59, _⟩ => ⟨S16x200000, .i32⟩
  | .hbm, ⟨60, _⟩ => ⟨S16x200000, .i32⟩
  | .hbm, ⟨61, _⟩ => ⟨S16x200000, .i32⟩
  | .hbm, ⟨62, _⟩ => ⟨S_, .i32⟩
  | .hbm, ⟨63, _⟩ => ⟨S16x200000, .i32⟩
  | .hbm, ⟨64, _⟩ => ⟨S16x200000, .i1⟩
  | .hbm, ⟨65, _⟩ => ⟨S_, .i32⟩
  | .hbm, ⟨66, _⟩ => ⟨S16x200000, .i32⟩
  | .hbm, ⟨67, _⟩ => ⟨S16x200000, .i32⟩
  | .hbm, ⟨68, _⟩ => ⟨S16x200000, .i32⟩
  | .hbm, ⟨69, _⟩ => ⟨S16x200000, .i32⟩
  | .hbm, ⟨70, _⟩ => ⟨S16x200000x1, .i32⟩
  | .hbm, ⟨71, _⟩ => ⟨S16x200000x1, .i32⟩
  | .hbm, ⟨72, _⟩ => ⟨S16x200000x1, .i32⟩
  | .hbm, ⟨73, _⟩ => ⟨S16x200000x3, .i32⟩
  | .hbm, ⟨74, _⟩ => ⟨S16x200000, .f32⟩
  | .hbm, ⟨75, _⟩ => ⟨S_, .f32⟩
  | .hbm, ⟨76, _⟩ => ⟨S16x200000, .f32⟩
  | .hbm, ⟨77, _⟩ => ⟨S16x200000, .f32⟩
  | .hbm, ⟨78, _⟩ => ⟨S16x200000, .f32⟩
  | .hbm, ⟨79, _⟩ => ⟨S_, .f32⟩
  | .hbm, ⟨80, _⟩ => ⟨S16x200000, .f32⟩
  | .hbm, ⟨81, _⟩ => ⟨S16x200000, .i1⟩
  | .hbm, ⟨82, _⟩ => ⟨S_, .f32⟩
  | .hbm, ⟨83, _⟩ => ⟨S16x200000, .f32⟩
  | .hbm, ⟨84, _⟩ => ⟨S16x200000, .f32⟩
  | .hbm, ⟨85, _⟩ => ⟨S16x200000, .f32⟩
  | .hbm, ⟨86, _⟩ => ⟨S_, .f32⟩
  | .hbm, ⟨87, _⟩ => ⟨S16x200000, .f32⟩
  | .hbm, ⟨88, _⟩ => ⟨S16x200000, .i1⟩
  | .hbm, ⟨89, _⟩ => ⟨S_, .i32⟩
  | .hbm, ⟨90, _⟩ => ⟨S_, .i32⟩
  | .hbm, ⟨91, _⟩ => ⟨S16x200000, .i32⟩
  | .hbm, ⟨92, _⟩ => ⟨S16x200000, .i32⟩
  | .hbm, ⟨93, _⟩ => ⟨S16x200000, .i32⟩
  | .hbm, ⟨94, _⟩ => ⟨S_, .i32⟩
  | .hbm, ⟨95, _⟩ => ⟨S16x200000, .i32⟩
  | .hbm, ⟨96, _⟩ => ⟨S16x200000, .i32⟩
  | .hbm, ⟨97, _⟩ => ⟨S16x200000, .i32⟩
  | .hbm, ⟨98, _⟩ => ⟨S16x200000, .i1⟩
  | .hbm, ⟨99, _⟩ => ⟨S16x200000, .f32⟩
  | .hbm, ⟨100, _⟩ => ⟨S200000, .i32⟩
  | .hbm, ⟨101, _⟩ => ⟨S1x200000, .i32⟩
  | .hbm, ⟨102, _⟩ => ⟨S16x1, .i32⟩
  | .hbm, ⟨103, _⟩ => ⟨S16x200000, .i32⟩
  | .hbm, ⟨104, _⟩ => ⟨S16x200000, .i32⟩
  | .hbm, ⟨105, _⟩ => ⟨S16x200000, .i1⟩
  | .hbm, ⟨106, _⟩ => ⟨S16x200000, .f32⟩
  | .hbm, ⟨107, _⟩ => ⟨S16x200000, .f32⟩
  | .hbm, ⟨108, _⟩ => ⟨S16x200000, .f32⟩
  | .hbm, ⟨109, _⟩ => ⟨S_, .f32⟩
  | .hbm, ⟨110, _⟩ => ⟨S16, .f32⟩
  | .hbm, ⟨111, _⟩ => ⟨S_, .f32⟩
  | .hbm, ⟨112, _⟩ => ⟨S16, .f32⟩
  | .hbm, ⟨113, _⟩ => ⟨S16, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_1 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_3 : Ref sig .tc := ⟨.hbm, 35, rfl⟩
abbrev main_v28 : Ref sig .tc := ⟨.hbm, 36, rfl⟩
abbrev main_v29 : Ref sig .tc := ⟨.hbm, 37, rfl⟩
abbrev main_c_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_5 : Ref sig .tc := ⟨.hbm, 48, rfl⟩
abbrev main_v39 : Ref sig .tc := ⟨.hbm, 49, rfl⟩
abbrev main_v40 : Ref sig .tc := ⟨.hbm, 50, rfl⟩
abbrev main_c_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_7 : Ref sig .tc := ⟨.hbm, 55, rfl⟩
abbrev main_v44 : Ref sig .tc := ⟨.hbm, 56, rfl⟩
abbrev main_v45 : Ref sig .tc := ⟨.hbm, 57, rfl⟩
abbrev main_c_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_9 : Ref sig .tc := ⟨.hbm, 62, rfl⟩
abbrev main_v49 : Ref sig .tc := ⟨.hbm, 63, rfl⟩
abbrev main_v50 : Ref sig .tc := ⟨.hbm, 64, rfl⟩
abbrev main_c_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_13 : Ref sig .tc := ⟨.hbm, 86, rfl⟩
abbrev main_v68 : Ref sig .tc := ⟨.hbm, 87, rfl⟩
abbrev main_v69 : Ref sig .tc := ⟨.hbm, 88, rfl⟩
abbrev main_c_14 : Ref sig .tc := ⟨.hbm, 89, rfl⟩
abbrev main_c_15 : Ref sig .tc := ⟨.hbm, 90, rfl⟩
abbrev main_call0_v0 : Ref sig .tc := ⟨.hbm, 91, rfl⟩
abbrev main_call0_v1 : Ref sig .tc := ⟨.hbm, 92, rfl⟩
abbrev main_v70 : Ref sig .tc := ⟨.hbm, 93, rfl⟩
abbrev main_c_16 : Ref sig .tc := ⟨.hbm, 94, rfl⟩
abbrev main_call1_v0 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_17 : Ref sig .tc := ⟨.hbm, 109, rfl⟩
abbrev main_v84 : Ref sig .tc := ⟨.hbm, 110, rfl⟩
abbrev main_cst_18 : Ref sig .tc := ⟨.hbm, 111, rfl⟩
abbrev main_v85 : Ref sig .tc := ⟨.hbm, 112, rfl⟩
abbrev main_v86 : Ref sig .tc := ⟨.hbm, 113, rfl⟩
abbrev main_cst_19 : Ref sig .tc := ⟨.hbm, 114, rfl⟩
abbrev main_v87 : Ref sig .tc := ⟨.hbm, 115, rfl⟩
abbrev main_cst_20 : Ref sig .tc := ⟨.hbm, 116, rfl⟩
abbrev main_v88 : Ref sig .tc := ⟨.hbm, 117, rfl⟩

abbrev nD : Nat := 1
abbrev τ : Topo := Topo.v7x

variable {F : FTy → Type} [FloatOps F]

class Facts₀ : Prop where
  slices_S16x200000x6_S16x200000x4_0_0_0 : S16x200000x6.Slices ![0, 0, 0] S16x200000x4
  slices_S16x200000x4_S16x200000x1_0_0_0 : S16x200000x4.Slices ![0, 0, 0] S16x200000x1
  shapeCasts_S16x200000x1_S16x200000 : S16x200000x1.ShapeCasts S16x200000
  slices_S16x200000x4_S16x200000x1_0_0_1 : S16x200000x4.Slices ![0, 0, 1] S16x200000x1
  slices_S16x200000x4_S16x200000x1_0_0_2 : S16x200000x4.Slices ![0, 0, 2] S16x200000x1
  slices_S16x200000x4_S16x200000x1_0_0_3 : S16x200000x4.Slices ![0, 0, 3] S16x200000x1
  slices_S16x200000x6_S16x200000x1_0_0_4 : S16x200000x6.Slices ![0, 0, 4] S16x200000x1
  slices_S16x200000x6_S16x200000x1_0_0_5 : S16x200000x6.Slices ![0, 0, 5] S16x200000x1
  shapeCasts_S16x1x512x512_S16x512x512 : S16x1x512x512.ShapeCasts S16x512x512
  bcast_S16_S16x1_0 : S16.BroadcastsInDim S16x1 (![0] : Fin 1 → Fin S16x1.rank)
  bcast_S_S16x1 : S_.BroadcastsInDim S16x1 (![] : Fin 0 → Fin S16x1.rank)
  bcast_S_S16x200000 : S_.BroadcastsInDim S16x200000 (![] : Fin 0 → Fin S16x200000.rank)
  bcast_S16x1_S16x200000_0_1 : S16x1.BroadcastsInDim S16x200000 (![0, 1] : Fin 2 → Fin S16x200000.rank)
  bcast_S16x200000_S16x200000x1_0_1 : S16x200000.BroadcastsInDim S16x200000x1 (![0, 1] : Fin 2 → Fin S16x200000x1.rank)
  concatenates_S16x200000x1_S16x200000x1_S16x200000x1_S16x200000x3_d2 : Shape.Concatenates [S16x200000x1, S16x200000x1, S16x200000x1] S16x200000x3 2
  bcast_S200000_S1x200000_1 : S200000.BroadcastsInDim S1x200000 (![1] : Fin 1 → Fin S1x200000.rank)
  bcast_S1x200000_S16x200000_0_1 : S1x200000.BroadcastsInDim S16x200000 (![0, 1] : Fin 2 → Fin S16x200000.rank)
  reducesTo_S16x200000_S16_d1 : S16x200000.ReducesTo [1] S16
  h_S_ : 0 < S_.numel
  reducesTo_S16_S_d0 : S16.ReducesTo [0] S_
  gather_S16x512x512_S16x200000x3_S16x200000_n_012_n_n_012_2_111_wf : GatherDims.WF S16x512x512 S16x200000x3 S16x200000 [] [0, 1, 2] [] [0, 1, 2] [] 2 ![1, 1, 1]

variable [Facts₀]

def gather_S16x512x512_S16x200000x3_S16x200000_n_012_n_n_012_2_111 : GatherDims S16x512x512 S16x200000x3 S16x200000 where
  offsetDims := []
  collapsedSliceDims := [0, 1, 2]
  operandBatchingDims := []
  startIndicesBatchingDims := []
  startIndexMap := [0, 1, 2]
  indexVectorDim := 2
  sliceSizes := ![1, 1, 1]
  wf := gather_S16x512x512_S16x200000x3_S16x200000_n_012_n_n_012_2_111_wf

class Facts : Prop extends Facts₀ where

variable [Facts]
-- ==== Proof.Tally.lean ====
/-
  The quantity both programs compute, written once over the three argument arrays.

  An image stack `v : [16, 1, 512, 512]`, a list of comparisons `c : [16, 200000, 6]` and a count per image
  `q : [16]`. Comparison `n` of image `b` names two pixels by integer coordinates (entries 0–3 of its row, each
  converted to a 32-bit integer: `x₁ y₁ x₂ y₂`), a label (entry 4, converted likewise) and a weight (entry 5).
  With `r₁ = v[b, 0, y₁, x₁]` and `r₂ = v[b, 0, y₂, x₂]` the comparison's verdict is `1` when
  `r₂ / (r₁ + ε) > θ`, else `2` when `r₁ / (r₂ + ε) > θ`, else `0`; it is a miss when the verdict differs from the
  label. Only the first `q[b]` comparisons of an image count. The image's score is the weighted share of misses,
  `(∑ₙ wₙ · liveₙ · missₙ) / (∑ₙ wₙ · liveₙ)`, all on the extended reals.
-/
import Idealize.ShloMosaic.PureOps.Ideal
import Idealize.ShloMosaic.PureOps.Ideal.Laws
import Idealize.ShloMosaic.Lib.ValueIdx

noncomputable section

open scoped BigOperators

namespace Cert.Tally

open Idealize.ShloMosaic Idealize.ShloMosaic.ValueIdx

/-- The image stack, the comparison list and the per-image counts, as arrays of extended reals and words. -/
abbrev Img := (⟨4, ![16, 1, 512, 512]⟩ : Shape).Idx → EReal
abbrev Cmp := (⟨3, ![16, 200000, 6]⟩ : Shape).Idx → EReal
abbrev Cnt := (⟨1, ![16]⟩ : Shape).Idx → BitVec 32

/-- Entry `k` of comparison `n` of image `b`, converted to a 32-bit integer (toward zero, saturating). -/
def word (c : Cmp) (b : Fin 16) (n : Fin 200000) (k : Fin 6) : BitVec 32 :=
  Ideal.fptosi 32 (c (ix3 b n k))

/-- Every pixel coordinate of every comparison lies on the 512 × 512 image: as an unsigned number the word is below
    512 (a negative word is a large unsigned number). -/
def OnImage (c : Cmp) : Prop :=
  ∀ (b : Fin 16) (n : Fin 200000) (k : Fin 6), k.val < 4 → (word c b n k).toNat < 512

/-- The pixel of image `b` at row `y`, column `x`, the two words read as naturals and held to the last row and
    column (on the image, `OnImage`, nothing is held back). -/
def pixel (v : Img) (b : Fin 16) (y x : BitVec 32) : EReal :=
  v (ix4 b (0 : Fin 1) (⟨min y.toNat 511, by omega⟩ : Fin 512) (⟨min x.toNat 511, by omega⟩ : Fin 512))

/-- The two constants of the verdict: the f32 nearest `1e-10` and the f32 nearest `1.1`, as the extended reals their
    words denote. -/
def eps : EReal := Ideal.ofBits .f32 0x2EDBE6FF#32
def thr : EReal := Ideal.ofBits .f32 0x3F8CCCCD#32

/-- The verdict on two pixel values: `1` when the second exceeds the first by the threshold ratio, `2` when the first
    exceeds the second, `0` otherwise. -/
def verdict (a₁ a₂ : EReal) : BitVec 32 :=
  Scalar.select (Ideal.cmp .ogt (Ideal.div a₂ (a₁ + eps)) thr) 1#32
    (Scalar.select (Ideal.cmp .ogt (Ideal.div a₁ (a₂ + eps)) thr) 2#32 0#32)

/-- A truth value as the extended real `0` or `1`. -/
def bitR (t : BitVec 1) : EReal := (((t.setWidth 32).toInt : ℝ) : EReal)

theorem bitR_one : bitR 1#1 = 1 := by simp [bitR]
theorem bitR_zero : bitR 0#1 = 0 := by simp [bitR]

/-- The two pixels comparison `n` of image `b` names. -/
def first (v : Img) (c : Cmp) (b : Fin 16) (n : Fin 200000) : EReal := pixel v b (word c b n 1) (word c b n 0)
def second (v : Img) (c : Cmp) (b : Fin 16) (n : Fin 200000) : EReal := pixel v b (word c b n 3) (word c b n 2)

/-- `1` when the verdict on the comparison's two pixels differs from its label, else `0`. -/
def miss (v : Img) (c : Cmp) (b : Fin 16) (n : Fin 200000) : EReal :=
  bitR (IntOp.cmpi .ne (verdict (first v c b n) (second v c b n)) (word c b n 4))

/-- `1` when comparison `n` is among the first `q` (a signed comparison of words), else `0`. -/
def live (q : BitVec 32) (n : Fin 200000) : EReal := bitR (IntOp.cmpi .slt (BitVec.ofNat 32 n.val) q)

/-- The weight of a comparison, zero past the count; and the same where the comparison is a miss. -/
def wt (c : Cmp) (q : BitVec 32) (b : Fin 16) (n : Fin 200000) : EReal := c (ix3 b n 5) * live q n
def wtm (v : Img) (c : Cmp) (q : BitVec 32) (b : Fin 16) (n : Fin 200000) : EReal := wt c q b n * miss v c b n

/-- The score of each image: its missed weight over its whole weight. -/
def score (v : Img) (c : Cmp) (q : Cnt) : (⟨1, ![16]⟩ : Shape).Idx → EReal := fun i =>
  Ideal.div (∑ n : Fin 200000, wtm v c (q (ix1 (i 0))) (i 0) n) (∑ n : Fin 200000, wt c (q (ix1 (i 0))) (i 0) n)

/-- Comparison `j` of the `m`-th run of a thousand. -/
def row (m : Fin 200) (j : Fin 1000) : Fin 200000 := ⟨1000 * m.val + j.val, by omega⟩

/-- The thousand comparisons of run `m` of image `b`, laid out as a [1, 1000, 6] block: entry (0, j, k) is entry `k` of
    comparison `row m j`. -/
def rowsBlk (c : Cmp) (b : Fin 16) (m : Fin 200) : (⟨3, ![1, 1000, 6]⟩ : Shape).Idx → EReal :=
  fun y => c (ix3 b (row m (y 1)) (y 2))

/-- Image `b` with rows and columns exchanged, laid out as a [1, 512, 512] block: entry (0, x, y) is the pixel at
    row `y`, column `x`. -/
def imgBlk (v : Img) (b : Fin 16) : (⟨3, ![1, 512, 512]⟩ : Shape).Idx → EReal :=
  fun y => v (ix4 b (0 : Fin 1) (y 2) (y 1))

/-- The comparisons are two hundred runs of a thousand: a sum over all of them is the sum over the runs of the sums
    within each. -/
theorem sum_rows {M : Type*} [AddCommMonoid M] (f : Fin 200000 → M) :
    ∑ n : Fin 200000, f n = ∑ m : Fin 200, ∑ j : Fin 1000, f (row m j) := by
  rw [← Finset.sum_product', Finset.univ_product_univ]
  refine (Finset.sum_bij' (fun (p : Fin 200 × Fin 1000) _ => row p.1 p.2)
    (fun (n : Fin 200000) _ => ((⟨n.val / 1000, by omega⟩ : Fin 200), (⟨n.val % 1000, Nat.mod_lt _ (by norm_num)⟩ : Fin 1000)))
    (fun _ _ => Finset.mem_univ _) (fun _ _ => Finset.mem_univ _) ?_ ?_ (fun _ _ => rfl)).symm
  · rintro ⟨m, j⟩ _
    refine Prod.ext (Fin.ext ?_) (Fin.ext ?_)
    · show (1000 * m.val + j.val) / 1000 = m.val; omega
    · show (1000 * m.val + j.val) % 1000 = j.val; omega
  · intro n _
    refine Fin.ext ?_
    show 1000 * (n.val / 1000) + n.val % 1000 = n.val; omega

end Cert.Tally

end
-- ==== Proof.OnImageOfPre.lean ====
/-
  The precondition says, among other things, that every pixel coordinate of every comparison, converted to an integer
  word, is at least 0 and below 512. Read back at one entry of the comparison list, that is the statement that the
  word is below 512 as an unsigned number: the coordinates are on the image.
-/
import proofs.«401918_j15994458211238_3_alg».proof.Proof.Tally
import proofs.«401918_j15994458211238_3_alg».proof.Proof.Gen.Pre_finite_inputs
import Idealize.ShloMosaic.Lib.ReduceAll
import Idealize.ShloMosaic.Lib.Pipeline.Value
import Idealize.ShloMosaic.Lib.StableHlo.Predicate

noncomputable section

namespace Cert.Domain

open Idealize.ShloMosaic Idealize.ShloMosaic.ValueIdx Cert.Tally

/-- A word that is at least `0` and below `512` as a signed number is below `512` as an unsigned one. -/
theorem toNat_lt_of_signed (w : BitVec 32) (h0 : IntOp.cmpi .sge w 0#32 = 1#1) (h1 : IntOp.cmpi .slt w 512#32 = 1#1) :
    w.toNat < 512 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- The scalar shape has one index. -/
instance : Subsingleton Cert.Pre_finite_inputs.S_.Idx := ⟨fun _ _ => funext fun d => d.elim0⟩

/-- The precondition's last conjunct, read back: it is the conjunction over every entry `(b, n, k)`, `k < 4`, of the
    comparison list of `0 ≤ w` and `w < 512` (signed) for the entry's integer word `w`; so every coordinate word is
    below `512` unsigned. -/
theorem onImage_of_pre (v : Img) (c : Cmp) (q : Cnt)
    (h : Cert.Pre_finite_inputs.fn (F := Ideal) v c q = fun _ => 1#1) : OnImage c := by
  intro b n k hk
  have e := congrFun h ix0
  dsimp only [Cert.Pre_finite_inputs.fn, Cert.Pre_finite_inputs.fn_part1] at e
  have e16 := (IntOp.andi_eq_one.1 e).2
  have el := Host.reduce_andi_all _ _ _ _ _ e16 (ix3 b n (⟨k.val, hk⟩ : Fin 4))
  obtain ⟨h0, h1⟩ := IntOp.andi_eq_one.1 el
  have hw : fptosi (F := Ideal) (φ := .f32) 32
      (extractStridedSlice Cert.Pre_finite_inputs.S16x200000x4 ![0, 0, 0] c
        Cert.Pre_finite_inputs.Facts.slices_S16x200000x6_S16x200000x4_0_0_0) (ix3 b n (⟨k.val, hk⟩ : Fin 4))
      = word c b n k := by
    show Ideal.fptosi 32 _ = Ideal.fptosi 32 _
    refine congrArg (Ideal.fptosi 32) (extractStridedSlice_apply _ _ _ _ _ fun a => ?_)
    match a with
    | ⟨0, _⟩ => simp
    | ⟨1, _⟩ => simp
    | ⟨2, _⟩ => simp
  exact hw ▸ toNat_lt_of_signed _ h0 h1

end Cert.Domain

end
-- ==== Proof.Pieces.lean ====
/-
  What one grid point leaves in the two running sums and, at the last point, in the output block.

  The kernel keeps two 16-lane accumulators across its 16 × 200 grid points: the live weight of each image and the
  live weight of its misses. A point of image `b` adds its own two partial sums to lane `b` of each (every lane
  gets `[lane = b] · partial`). The first point starts from zeros; the last point, after adding, stores the lanewise
  quotient of the two accumulators into the output block. The three lemma groups below read those stores back as
  values, one group per kind of point (first, middle, last).
-/
import proofs.«401918_j15994458211238_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Pieces

open Cert.KernelIdeal Cert.KernelIdeal.Gen

variable {F : FTy → Type} [FloatOps F]

theorem hz : (![0] : Fin 1 → Nat) = fun _ => 0 := funext fun a => by fin_cases a; rfl
theorem hz3 : (![0, 0, 0] : Fin 3 → Nat) = fun _ => 0 := funext fun a => by fin_cases a <;> rfl

/-- The count word of the point's image, as the body reads it from the table of counts. -/
def countWord (c : Dev nD) (i : grid0.Coords) (xt0 : TbBuf0 (F := F) c tbM0_0) : Elt F .i32 :=
  View.ld (View.read (Elt F) (View.whole main_arg2) xt0) (Rect.unit (s := S16) (k0_off1 i) S1.size (k0_off1_inb i))
    (Shape.Idx.first (show 0 < S1.numel by decide))

/-- The point's partial sum of live weights, from its block of comparisons and the count word. -/
def partW (i : grid0.Coords) (x1 : Vec F S1x1000x6 .f32) (q : Elt F .i32) : F .f32 :=
  k0_pay16 (BitVec.ofNat 32 (i 1).val) (k0_pay11 x1) q

/-- The point's partial sum of the live weights of misses, from the image block, the comparisons and the count. -/
def partWM (i : grid0.Coords) (x0 : Vec F S1x512x512 .f32) (x1 : Vec F S1x1000x6 .f32) (q : Elt F .i32) : F .f32 :=
  k0_pay17 (BitVec.ofNat 32 (i 1).val) (k0_pay8 x0) (k0_pay9 x1) (k0_pay10 x1) (k0_pay11 x1)
    (iota .tc S1000x512 32 [1] iota_S1000x512_d1_w32) (k0_pay12 x1 x0) (k0_pay13 x1)
    (constant S1000x512 .f32 0x00000000#32) q

/-- Adding a partial sum `p` to the lane of the point's image: every lane gets `[lane = image] · p` added. -/
def bump (i : grid0.Coords) (p : F .f32) (acc : Vec F S16 .f32) : Vec F S16 .f32 :=
  k0_pay2 (BitVec.ofNat 32 (i 0).val) p k0_pay18 acc

theorem bump_eq3 (i : grid0.Coords) (p : F .f32) (acc : Vec F S16 .f32) :
    k0_pay3 (BitVec.ofNat 32 (i 0).val) p k0_pay18 acc = bump i p acc := rfl

/-! ## A middle point -/

theorem mid_w (c : Dev nD) (i : grid0.Coords) (arg3 : Memref sig .tc .vmem S1x512x512 .f32) (harg3 : arg3.IsWhole) (arg4 : Memref sig .tc .vmem S1x1000x6 .f32) (harg4 : arg4.IsWhole) (arg5 : Memref sig .tc .vmem S16 .f32) (harg5 : arg5.IsWhole) (arg6 : Memref sig .tc .vmem S16 .f32) (harg6 : arg6.IsWhole) (arg7 : Memref sig .tc .vmem S16 .f32) (harg7 : arg7.IsWhole) (hc0 : ¬cond0_0 i) (hc1 : ¬cond0_1 i) (x0 : Vec F S1x512x512 .f32) (x1 : Vec F S1x1000x6 .f32) (xt0 : TbBuf0 (F := F) c tbM0_0) (xs0 : Vec F S16 .f32) (xs1 : Vec F S16 .f32) :
    sout0_B_0 c i arg3 harg3 arg4 harg4 arg5 harg5 arg6 harg6 arg7 harg7 hc0 hc1 x0 x1 xt0 xs0 xs1 = bump i (partW i x1 (countWord c i xt0)) xs0 := by
  unfold sout0_B_0
  rw [View.read_writes_eq_canon _ _ _ (scover0_B_0 c i arg3 harg3 arg4 harg4 arg5 harg5 arg6 harg6 arg7 harg7 hc0 hc1 x0 x1 xt0 xs0 xs1)]
  unfold kernelRun0_B
  dsimp only
  sl_unfold_words
  rw [View.canon_unit_zero hz]
  simp only [View.readAt_eq_ld, harg3.read_unread, harg4.read_unread, harg5.read_unread, harg6.read_unread, harg7.read_unread, View.ld_unit_zero (S := S16) hz, View.ld_unit_zero (S := S1x512x512) hz3, View.ld_unit_zero (S := S1x1000x6) hz3]
  rfl

theorem mid_wm (c : Dev nD) (i : grid0.Coords) (arg3 : Memref sig .tc .vmem S1x512x512 .f32) (harg3 : arg3.IsWhole) (arg4 : Memref sig .tc .vmem S1x1000x6 .f32) (harg4 : arg4.IsWhole) (arg5 : Memref sig .tc .vmem S16 .f32) (harg5 : arg5.IsWhole) (arg6 : Memref sig .tc .vmem S16 .f32) (harg6 : arg6.IsWhole) (arg7 : Memref sig .tc .vmem S16 .f32) (harg7 : arg7.IsWhole) (hc0 : ¬cond0_0 i) (hc1 : ¬cond0_1 i) (x0 : Vec F S1x512x512 .f32) (x1 : Vec F S1x1000x6 .f32) (xt0 : TbBuf0 (F := F) c tbM0_0) (xs0 : Vec F S16 .f32) (xs1 : Vec F S16 .f32) :
    sout0_B_1 c i arg3 harg3 arg4 harg4 arg5 harg5 arg6 harg6 arg7 harg7 hc0 hc1 x0 x1 xt0 xs0 xs1 = bump i (partWM i x0 x1 (countWord c i xt0)) xs1 := by
  unfold sout0_B_1
  rw [View.read_writes_eq_canon _ _ _ (scover0_B_1 c i arg3 harg3 arg4 harg4 arg5 harg5 arg6 harg6 arg7 harg7 hc0 hc1 x0 x1 xt0 xs0 xs1)]
  unfold kernelRun0_B
  dsimp only
  sl_unfold_words
  rw [View.canon_unit_zero hz]
  simp only [View.readAt_eq_ld, harg3.read_unread, harg4.read_unread, harg5.read_unread, harg6.read_unread, harg7.read_unread, View.ld_unit_zero (S := S16) hz, View.ld_unit_zero (S := S1x512x512) hz3, View.ld_unit_zero (S := S1x1000x6) hz3]
  rfl

/-! ## The first point -/

theorem first_w (c : Dev nD) (i : grid0.Coords) (arg3 : Memref sig .tc .vmem S1x512x512 .f32) (harg3 : arg3.IsWhole) (arg4 : Memref sig .tc .vmem S1x1000x6 .f32) (harg4 : arg4.IsWhole) (arg5 : Memref sig .tc .vmem S16 .f32) (harg5 : arg5.IsWhole) (arg6 : Memref sig .tc .vmem S16 .f32) (harg6 : arg6.IsWhole) (arg7 : Memref sig .tc .vmem S16 .f32) (harg7 : arg7.IsWhole) (hc0 : cond0_0 i) (hc1 : ¬cond0_1 i) (x0 : Vec F S1x512x512 .f32) (x1 : Vec F S1x1000x6 .f32) (xt0 : TbBuf0 (F := F) c tbM0_0) :
    sout0_A_0 c i arg3 harg3 arg4 harg4 arg5 harg5 arg6 harg6 arg7 harg7 hc0 hc1 x0 x1 xt0 = bump i (partW i x1 (countWord c i xt0)) k0_pay5 := by
  unfold sout0_A_0
  rw [View.read_writes_eq_canon _ _ _ (scover0_A_0 c i arg3 harg3 arg4 harg4 arg5 harg5 arg6 harg6 arg7 harg7 hc0 hc1 x0 x1 xt0)]
  unfold kernelRun0_A
  dsimp only
  sl_unfold_words
  rw [View.canon_cons_unit_zero (S := S16) hz, View.readCov_unit_zero (S := S16) _ hz]
  simp only [View.readAt_eq_ld, harg3.read_unread, harg4.read_unread, harg5.read_unread, harg6.read_unread, harg7.read_unread, View.ld_unit_zero (S := S16) hz, View.ld_unit_zero (S := S1x512x512) hz3, View.ld_unit_zero (S := S1x1000x6) hz3]
  rfl

theorem first_wm (c : Dev nD) (i : grid0.Coords) (arg3 : Memref sig .tc .vmem S1x512x512 .f32) (harg3 : arg3.IsWhole) (arg4 : Memref sig .tc .vmem S1x1000x6 .f32) (harg4 : arg4.IsWhole) (arg5 : Memref sig .tc .vmem S16 .f32) (harg5 : arg5.IsWhole) (arg6 : Memref sig .tc .vmem S16 .f32) (harg6 : arg6.IsWhole) (arg7 : Memref sig .tc .vmem S16 .f32) (harg7 : arg7.IsWhole) (hc0 : cond0_0 i) (hc1 : ¬cond0_1 i) (x0 : Vec F S1x512x512 .f32) (x1 : Vec F S1x1000x6 .f32) (xt0 : TbBuf0 (F := F) c tbM0_0) :
    sout0_A_1 c i arg3 harg3 arg4 harg4 arg5 harg5 arg6 harg6 arg7 harg7 hc0 hc1 x0 x1 xt0 = bump i (partWM i x0 x1 (countWord c i xt0)) k0_pay6 := by
  unfold sout0_A_1
  rw [View.read_writes_eq_canon _ _ _ (scover0_A_1 c i arg3 harg3 arg4 harg4 arg5 harg5 arg6 harg6 arg7 harg7 hc0 hc1 x0 x1 xt0)]
  unfold kernelRun0_A
  dsimp only
  sl_unfold_words
  rw [View.canon_cons_unit_zero (S := S16) hz, View.readCov_unit_zero (S := S16) _ hz]
  simp only [View.readAt_eq_ld, harg3.read_unread, harg4.read_unread, harg5.read_unread, harg6.read_unread, harg7.read_unread, View.ld_unit_zero (S := S16) hz, View.ld_unit_zero (S := S1x512x512) hz3, View.ld_unit_zero (S := S1x1000x6) hz3]
  rfl

/-! ## The last point -/

theorem last_w (c : Dev nD) (i : grid0.Coords) (arg3 : Memref sig .tc .vmem S1x512x512 .f32) (harg3 : arg3.IsWhole) (arg4 : Memref sig .tc .vmem S1x1000x6 .f32) (harg4 : arg4.IsWhole) (arg5 : Memref sig .tc .vmem S16 .f32) (harg5 : arg5.IsWhole) (arg6 : Memref sig .tc .vmem S16 .f32) (harg6 : arg6.IsWhole) (arg7 : Memref sig .tc .vmem S16 .f32) (harg7 : arg7.IsWhole) (hc0 : ¬cond0_0 i) (hc1 : cond0_1 i) (x0 : Vec F S1x512x512 .f32) (x1 : Vec F S1x1000x6 .f32) (xt0 : TbBuf0 (F := F) c tbM0_0) (xs0 : Vec F S16 .f32) (xs1 : Vec F S16 .f32) :
    sout0_C_0 c i arg3 harg3 arg4 harg4 arg5 harg5 arg6 harg6 arg7 harg7 hc0 hc1 x0 x1 xt0 xs0 xs1 = bump i (partW i x1 (countWord c i xt0)) xs0 := by
  unfold sout0_C_0
  rw [View.read_writes_eq_canon _ _ _ (scover0_C_0 c i arg3 harg3 arg4 harg4 arg5 harg5 arg6 harg6 arg7 harg7 hc0 hc1 x0 x1 xt0 xs0 xs1)]
  unfold kernelRun0_C
  dsimp only
  sl_unfold_words
  rw [View.canon_unit_zero hz]
  simp only [View.readAt_eq_ld, harg3.read_unread, harg4.read_unread, harg5.read_unread, harg6.read_unread, harg7.read_unread, View.ld_unit_zero (S := S16) hz, View.ld_unit_zero (S := S1x512x512) hz3, View.ld_unit_zero (S := S1x1000x6) hz3]
  rfl

theorem last_wm (c : Dev nD) (i : grid0.Coords) (arg3 : Memref sig .tc .vmem S1x512x512 .f32) (harg3 : arg3.IsWhole) (arg4 : Memref sig .tc .vmem S1x1000x6 .f32) (harg4 : arg4.IsWhole) (arg5 : Memref sig .tc .vmem S16 .f32) (harg5 : arg5.IsWhole) (arg6 : Memref sig .tc .vmem S16 .f32) (harg6 : arg6.IsWhole) (arg7 : Memref sig .tc .vmem S16 .f32) (harg7 : arg7.IsWhole) (hc0 : ¬cond0_0 i) (hc1 : cond0_1 i) (x0 : Vec F S1x512x512 .f32) (x1 : Vec F S1x1000x6 .f32) (xt0 : TbBuf0 (F := F) c tbM0_0) (xs0 : Vec F S16 .f32) (xs1 : Vec F S16 .f32) :
    sout0_C_1 c i arg3 harg3 arg4 harg4 arg5 harg5 arg6 harg6 arg7 harg7 hc0 hc1 x0 x1 xt0 xs0 xs1 = bump i (partWM i x0 x1 (countWord c i xt0)) xs1 := by
  unfold sout0_C_1
  rw [View.read_writes_eq_canon _ _ _ (scover0_C_1 c i arg3 harg3 arg4 harg4 arg5 harg5 arg6 harg6 arg7 harg7 hc0 hc1 x0 x1 xt0 xs0 xs1)]
  unfold kernelRun0_C
  dsimp only
  sl_unfold_words
  rw [View.canon_unit_zero hz]
  simp only [View.readAt_eq_ld, harg3.read_unread, harg4.read_unread, harg5.read_unread, harg6.read_unread, harg7.read_unread, View.ld_unit_zero (S := S16) hz, View.ld_unit_zero (S := S1x512x512) hz3, View.ld_unit_zero (S := S1x1000x6) hz3]
  rfl

theorem last_out (c : Dev nD) (i : grid0.Coords) (arg3 : Memref sig .tc .vmem S1x512x512 .f32) (harg3 : arg3.IsWhole) (arg4 : Memref sig .tc .vmem S1x1000x6 .f32) (harg4 : arg4.IsWhole) (arg5 : Memref sig .tc .vmem S16 .f32) (harg5 : arg5.IsWhole) (arg6 : Memref sig .tc .vmem S16 .f32) (harg6 : arg6.IsWhole) (arg7 : Memref sig .tc .vmem S16 .f32) (harg7 : arg7.IsWhole) (hc0 : ¬cond0_0 i) (hc1 : cond0_1 i) (x0 : Vec F S1x512x512 .f32) (x1 : Vec F S1x1000x6 .f32) (xt0 : TbBuf0 (F := F) c tbM0_0) (xs0 : Vec F S16 .f32) (xs1 : Vec F S16 .f32) :
    out0_C_2 c i arg3 harg3 arg4 harg4 arg5 harg5 arg6 harg6 arg7 harg7 hc0 hc1 x0 x1 xt0 xs0 xs1
      = k0_pay4 (bump i (partWM i x0 x1 (countWord c i xt0)) xs1) (bump i (partW i x1 (countWord c i xt0)) xs0) := by
  unfold out0_C_2
  rw [View.read_writes_eq_canon _ _ _ (cover0_C_2 c i arg3 harg3 arg4 harg4 arg5 harg5 arg6 harg6 arg7 harg7 hc0 hc1 x0 x1 xt0 xs0 xs1)]
  unfold kernelRun0_C
  dsimp only
  sl_unfold_words
  rw [View.canon_unit_zero hz]
  simp only [View.readCov_unit_zero (S := S16) _ hz, View.readAt_eq_ld, harg3.read_unread, harg4.read_unread, harg5.read_unread, harg6.read_unread, harg7.read_unread, View.ld_unit_zero (S := S16) hz, View.ld_unit_zero (S := S1x512x512) hz3, View.ld_unit_zero (S := S1x1000x6) hz3]
  rfl

end Cert.Pieces

end
-- ==== Proof.Accum.lean ====
/-
  The two running sums after each grid point, and the output block the last point stores.

  After point `n` each accumulator holds what the points `0 … n` have added to it, in order: the first point starts
  from the zero vector, every later point adds its partial sum to the lane of its own image on top of what the
  point before left. The last point (number 3199) then stores the lanewise quotient of the two accumulators.
-/
import proofs.«401918_j15994458211238_3_alg».proof.Proof.Pieces

noncomputable section

open Idealize.ShloMosaic Idealize.ShloMosaic.TcCoe Idealize.SL.Sem
open Idealize.ShloMosaic.Pipeline (Dat)

namespace Cert.Accum

open Cert.KernelIdeal Cert.KernelIdeal.Gen Cert.Pieces

variable {F : FTy → Type} [FloatOps F]
variable (m : (ℓ : Loc nD τ sig) → Buf (Elt F) ℓ) (hO : Ok m) (c : Dev nD)

/-- The partial sum of live weights point `n` contributes, and the partial sum of live missed weights. -/
def pw (n : ℕ) (h : n < (cfgM m hO).N) : F .f32 :=
  partW (grid0.coords ⟨n, h⟩) (iblk m hO c 1 ⟨n, h⟩) (countWord c (grid0.coords ⟨n, h⟩) (tbl m 0))
def pwm (n : ℕ) (h : n < (cfgM m hO).N) : F .f32 :=
  partWM (grid0.coords ⟨n, h⟩) (iblk m hO c 0 ⟨n, h⟩) (iblk m hO c 1 ⟨n, h⟩) (countWord c (grid0.coords ⟨n, h⟩) (tbl m 0))

/-- The accumulator of live weights after point `n`: the zero vector bumped by the points `0 … n` in order. -/
def accW : (n : ℕ) → n < (cfgM m hO).N → Vec F S16 .f32
  | 0, h => bump (grid0.coords ⟨0, h⟩) (pw m hO c 0 h) k0_pay5
  | n + 1, h => bump (grid0.coords ⟨n + 1, h⟩) (pw m hO c (n + 1) h) (accW n (Nat.lt_of_succ_lt h))

/-- The accumulator of live missed weights after point `n`. -/
def accWM : (n : ℕ) → n < (cfgM m hO).N → Vec F S16 .f32
  | 0, h => bump (grid0.coords ⟨0, h⟩) (pwm m hO c 0 h) k0_pay6
  | n + 1, h => bump (grid0.coords ⟨n + 1, h⟩) (pwm m hO c (n + 1) h) (accWM n (Nat.lt_of_succ_lt h))

/-- What the two scratch vectors hold after point `n` is the two accumulators: by induction on the point, the first
    point from zeros, a middle point and the last point on top of the point before. -/
theorem scratch_eq : ∀ (n : ℕ) (h : n < (cfgM m hO).N),
    (outsAt0 m hO c n h).2.1 = accW m hO c n h ∧ (outsAt0 m hO c n h).2.2 = accWM m hO c n h
  | 0, h => by
    have h0 : (⟨0, h⟩ : Fin (cfgM m hO).N).val % 3200 = 0 := Nat.zero_mod _
    have h1 : ¬(⟨0, h⟩ : Fin (cfgM m hO).N).val % 3200 = 3199 := by dsimp only; decide
    rw [outsAt0_A m hO c ⟨0, h⟩ h0 h1]
    dsimp only
    exact ⟨first_w c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) scM0_0 (Memref.isWhole_whole _) scM0_1 (Memref.isWhole_whole _) ((hcond0_0 ⟨0, h⟩).mpr h0) (fun hh => h1 ((hcond0_1 ⟨0, h⟩).mp hh)) (iblk m hO c 0 ⟨0, h⟩) (iblk m hO c 1 ⟨0, h⟩) (tbl m 0),
      first_wm c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) scM0_0 (Memref.isWhole_whole _) scM0_1 (Memref.isWhole_whole _) ((hcond0_0 ⟨0, h⟩).mpr h0) (fun hh => h1 ((hcond0_1 ⟨0, h⟩).mp hh)) (iblk m hO c 0 ⟨0, h⟩) (iblk m hO c 1 ⟨0, h⟩) (tbl m 0)⟩
  | n + 1, h => by
    have hN : (cfgM m hO).N = 3200 := N_0
    have ih := scratch_eq n (Nat.lt_of_succ_lt h)
    have h0 : ¬(⟨n + 1, h⟩ : Fin (cfgM m hO).N).val % 3200 = 0 := by dsimp only; omega
    by_cases h1 : (⟨n + 1, h⟩ : Fin (cfgM m hO).N).val % 3200 = 3199
    · rw [outsAt0_C m hO c ⟨n + 1, h⟩ h0 h1]
      dsimp only
      exact ⟨(last_w c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) scM0_0 (Memref.isWhole_whole _) scM0_1 (Memref.isWhole_whole _) _ _ (iblk m hO c 0 ⟨n + 1, h⟩) (iblk m hO c 1 ⟨n + 1, h⟩) (tbl m 0) (outsAt0 m hO c n (Nat.lt_of_succ_lt h)).2.1 (outsAt0 m hO c n (Nat.lt_of_succ_lt h)).2.2).trans
          (congrArg (bump (grid0.coords ⟨n + 1, h⟩) (pw m hO c (n + 1) h)) ih.1),
        (last_wm c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) scM0_0 (Memref.isWhole_whole _) scM0_1 (Memref.isWhole_whole _) _ _ (iblk m hO c 0 ⟨n + 1, h⟩) (iblk m hO c 1 ⟨n + 1, h⟩) (tbl m 0) (outsAt0 m hO c n (Nat.lt_of_succ_lt h)).2.1 (outsAt0 m hO c n (Nat.lt_of_succ_lt h)).2.2).trans
          (congrArg (bump (grid0.coords ⟨n + 1, h⟩) (pwm m hO c (n + 1) h)) ih.2)⟩
    · rw [outsAt0_B m hO c ⟨n + 1, h⟩ h0 h1]
      dsimp only
      exact ⟨(mid_w c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) scM0_0 (Memref.isWhole_whole _) scM0_1 (Memref.isWhole_whole _) _ _ (iblk m hO c 0 ⟨n + 1, h⟩) (iblk m hO c 1 ⟨n + 1, h⟩) (tbl m 0) (outsAt0 m hO c n (Nat.lt_of_succ_lt h)).2.1 (outsAt0 m hO c n (Nat.lt_of_succ_lt h)).2.2).trans
          (congrArg (bump (grid0.coords ⟨n + 1, h⟩) (pw m hO c (n + 1) h)) ih.1),
        (mid_wm c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) scM0_0 (Memref.isWhole_whole _) scM0_1 (Memref.isWhole_whole _) _ _ (iblk m hO c 0 ⟨n + 1, h⟩) (iblk m hO c 1 ⟨n + 1, h⟩) (tbl m 0) (outsAt0 m hO c n (Nat.lt_of_succ_lt h)).2.1 (outsAt0 m hO c n (Nat.lt_of_succ_lt h)).2.2).trans
          (congrArg (bump (grid0.coords ⟨n + 1, h⟩) (pwm m hO c (n + 1) h)) ih.2)⟩

/-- What the last point stores into the output block: the lanewise quotient of the two accumulators after it. -/
theorem out_last (t : Fin (cfgM m hO).N) (h1 : t.val % 3200 = 3199) :
    (outsAt0 m hO c t.val t.isLt).1 = k0_pay4 (accWM m hO c t.val t.isLt) (accW m hO c t.val t.isLt) := by
  have hN : (cfgM m hO).N = 3200 := N_0
  obtain ⟨n, hn⟩ := t
  cases n with
  | zero => exact absurd h1 (by dsimp only; decide)
  | succ k =>
    have ih := scratch_eq m hO c k (Nat.lt_of_succ_lt hn)
    have h0 : ¬(⟨k + 1, hn⟩ : Fin (cfgM m hO).N).val % 3200 = 0 := by dsimp only; omega
    rw [outsAt0_C m hO c ⟨k + 1, hn⟩ h0 h1]
    dsimp only
    refine (last_out c (grid0.coords ⟨k + 1, hn⟩) (ms0_0 m hO ⟨k + 1, hn⟩) (hs0_0 m hO ⟨k + 1, hn⟩) (ms0_1 m hO ⟨k + 1, hn⟩) (hs0_1 m hO ⟨k + 1, hn⟩) (ms0_2 m hO ⟨k + 1, hn⟩) (hs0_2 m hO ⟨k + 1, hn⟩) scM0_0 (Memref.isWhole_whole _) scM0_1 (Memref.isWhole_whole _) (fun hh => h0 ((hcond0_0 ⟨k + 1, hn⟩).mp hh)) ((hcond0_1 ⟨k + 1, hn⟩).mpr h1) (iblk m hO c 0 ⟨k + 1, hn⟩) (iblk m hO c 1 ⟨k + 1, hn⟩) (tbl m 0) (outsAt0 m hO c k (Nat.lt_of_succ_lt hn)).2.1 (outsAt0 m hO c k (Nat.lt_of_succ_lt hn)).2.2).trans ?_
    exact congrArg₂ k0_pay4
      (congrArg (bump (grid0.coords ⟨k + 1, hn⟩) (pwm m hO c (k + 1) hn)) ih.2)
      (congrArg (bump (grid0.coords ⟨k + 1, hn⟩) (pw m hO c (k + 1) hn)) ih.1)

end Cert.Accum

end
-- ==== Proof.Lanes.lean ====
/-
  The 16-lane running sums read at a lane.

  A grid point of image b adds a partial sum p to lane b of a 16-lane accumulator by adding, to every lane j,
  the product [j = b] · p: the lane number is compared with the image number and the one-bit result, widened and
  converted, is the extended real 1 or 0. The starting accumulators are zero in every lane, and the final quotient
  is taken lane by lane.
-/
import proofs.«401918_j15994458211238_3_alg».proof.Proof.Pieces
import proofs.«401918_j15994458211238_3_alg».proof.Proof.Tally
import Idealize.ShloMosaic.Lib.ValueIdx
import Idealize.ShloMosaic.Lib.ValueLayout
import Idealize.ShloMosaic.Lib.Pipeline.Value
import Idealize.ShloMosaic.PureOps.Ideal.Laws

noncomputable section

namespace Cert.Lanes

open Idealize.ShloMosaic Idealize.ShloMosaic.ValueIdx Cert.KernelIdeal Cert.KernelIdeal.Gen Cert.Tally Cert.Pieces

/-- Lane j of the lane-number vector is the word j. -/
theorem lane_word (j : Fin 16) : (k0_pay18 : IVec S16 32) (ix1 j) = BitVec.ofNat 32 j.val := by
  show shapeCast S16 (iota .tc S1x16 32 [1] iota_S1x16_d1_w32) shapeCasts_S1x16_S16 (ix1 j) = _
  rw [shapeCast_1a_a_apply, iota_single_apply]

/-- Lane j after a point of image (i 0) has added p: the old lane plus [j = image] · p. -/
theorem bump_apply (i : grid0.Coords) (p : EReal) (acc : Vec Ideal S16 .f32) (j : Fin 16) :
    bump (F := Ideal) i p acc (ix1 j)
      = acc (ix1 j) + bitR (IntOp.cmpi .eq (BitVec.ofNat 32 j.val) (BitVec.ofNat 32 (i 0).val)) * p := by
  show shapeCast S16 (addf acc (mulf (k0_pay1 (F := Ideal) (BitVec.ofNat 32 (i 0).val) k0_pay18) (broadcast S16 p)))
      shapeCasts_S16_S16 (ix1 j) = _
  rw [shapeCast_self]
  show acc (ix1 j) + bitR (IntOp.cmpi .eq ((k0_pay18 : IVec S16 32) (ix1 j)) (BitVec.ofNat 32 (i 0).val)) * p = _
  rw [lane_word]

/-- The starting accumulator of weights is zero in every lane. -/
theorem zero_w (j : Fin 16) : (k0_pay5 (F := Ideal)) (ix1 j) = 0 := by
  show shapeCast S16 (broadcast S16 (Scalar.ofBits (F := Ideal) .f32 0x00000000#32)) shapeCasts_S16_S16 (ix1 j) = _
  rw [shapeCast_self]
  exact Ideal.ofBits_zero_f32

/-- The starting accumulator of missed weights is zero in every lane. -/
theorem zero_wm (j : Fin 16) : (k0_pay6 (F := Ideal)) (ix1 j) = 0 := by
  show shapeCast S16 (broadcast S16 (Scalar.ofBits (F := Ideal) .f32 0x00000000#32)) shapeCasts_S16_S16 (ix1 j) = _
  rw [shapeCast_self]
  exact Ideal.ofBits_zero_f32

/-- The final quotient, lane by lane. -/
theorem quot_apply (a b : Vec Ideal S16 .f32) (j : Fin 16) :
    (k0_pay4 (F := Ideal) a b) (ix1 j) = Ideal.div (a (ix1 j)) (b (ix1 j)) := rfl

end Cert.Lanes

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.Blocks.lean ====
/-
  What the pipeline's windows hand the body at grid point `t`, in terms of the three argument arrays. The grid is
  16 × 200, so point `t` has coordinates `(t / 200, t % 200)`: image `t / 200`, run `t % 200`.

  * Window 0 reads blocks [1, 512, 512] of the array the host made from the image stack by dropping its unit axis and
    exchanging rows and columns; its block at `t` is image `t / 200` with rows and columns exchanged.
  * Window 1 reads blocks [1, 1000, 6] of the comparison list; its block at `t` is run `t % 200` of image `t / 200`.
  * The count word the body loads from the table of counts is the count of image `t / 200`.
-/
import proofs.«401918_j15994458211238_3_alg».proof.Proof.Gen.KernelIdeal.Frame
import proofs.«401918_j15994458211238_3_alg».proof.Proof.Pieces
import proofs.«401918_j15994458211238_3_alg».proof.Proof.Tally
import proofs.«401918_j15994458211238_3_alg».proof.Proof.LibRowOps
import Idealize.ShloMosaic.Lib.Pipeline.Value
import Idealize.ShloMosaic.Lib.ValueLayout
import Idealize.ShloMosaic.Lib.StableHlo.Run

set_option maxRecDepth 16384

noncomputable section

namespace Cert.Blocks

open Idealize.ShloMosaic Idealize.ShloMosaic.TcCoe Idealize.ShloMosaic.ValueIdx Idealize.SL.Sem
open Cert.KernelIdeal Cert.KernelIdeal.Gen Cert.Tally

variable (m : (ℓ : Loc nD τ sig) → Buf (Elt Ideal) ℓ)

/-! ## The grid's coordinates -/

/-- Point `t` of the 16 × 200 grid, run row-major, has first coordinate `t / 200`. -/
theorem coords0 : ∀ t : Fin grid0.N, (grid0.coords t 0).val = t.val / 200 :=
  (by decide +kernel : ∀ t : Fin grid0.N, (grid0.coords t 0).val = t.val / 200)
/-- And second coordinate `t % 200`. -/
theorem coords1 : ∀ t : Fin grid0.N, (grid0.coords t 1).val = t.val % 200 :=
  (by decide +kernel : ∀ t : Fin grid0.N, (grid0.coords t 1).val = t.val % 200)

/-- The image and the run of a thousand comparisons that grid point `t` works on. -/
def imgAt (t : Fin grid0.N) : Fin 16 := ⟨t.val / 200, by have := t.isLt; have := N_0; omega⟩
def runAt (t : Fin grid0.N) : Fin 200 := ⟨t.val % 200, Nat.mod_lt _ (by norm_num)⟩

/-! ## The array window 0 reads: the image stack without its unit axis, rows and columns exchanged -/

theorem V_main_v1 (c : Dev nD) :
    (V m c main_v1 : S16x512x512.Idx → EReal)
      = transpose S16x512x512 [0, 2, 1]
          (shapeCast S16x512x512 (m ((c : Thread nD τ).loc main_arg0)) Facts₀.shapeCasts_S16x1x512x512_S16x512x512)
          Facts₀.transposes_S16x512x512_S16x512x512_0_2_1 := by
  show StableHlo.after hostOps0 (fun b => m (c, b)) (Proc.devRef .tc main_v1) = _
  after_results
  rfl

/-- That array at `(b, p, q)` is the image stack at `(b, 0, q, p)`. -/
theorem swapped_apply (v : Img) (h1 : S16x1x512x512.ShapeCasts S16x512x512)
    (h2 : S16x512x512.Transposes [0, 2, 1] S16x512x512) (b : Fin 16) (p q : Fin 512) :
    transpose S16x512x512 [0, 2, 1] (shapeCast S16x512x512 v h1) h2 (ix3 b p q) = v (ix4 b (0 : Fin 1) q p) :=
  (transpose_ix3_021_apply (shapeCast S16x512x512 v h1) h2 b p q).trans
    (shapeCast_apply v h1 (ix3 b q p) (ix4 b (0 : Fin 1) q p) (by
      rw [Shape.rowMajor_val_four, Shape.rowMajor_val_three]
      show ((b.val * 1 + 0) * 512 + q.val) * 512 + p.val = (b.val * 512 + q.val) * 512 + p.val
      rw [Nat.mul_one, Nat.add_zero]))

/-! ## The windows' block indices, decided over the grid -/

theorem index0 (hO : Ok m) : ∀ t : Fin (cfgM m hO).N,
    ((cfgM m hO).win 0).index t ⟨0, (by decide : 0 < 3)⟩ = t.val / 200 ∧ ((cfgM m hO).win 0).index t ⟨1, (by decide : 1 < 3)⟩ = 0
      ∧ ((cfgM m hO).win 0).index t ⟨2, (by decide : 2 < 3)⟩ = 0 :=
  (by decide +kernel : ∀ t : Fin grid0.N,
    cc0_transform_0 (grid0.coords t) 0 = t.val / 200 ∧ cc0_transform_0 (grid0.coords t) 1 = 0
      ∧ cc0_transform_0 (grid0.coords t) 2 = 0)

theorem index1 (hO : Ok m) : ∀ t : Fin (cfgM m hO).N,
    ((cfgM m hO).win 1).index t ⟨0, (by decide : 0 < 3)⟩ = t.val / 200 ∧ ((cfgM m hO).win 1).index t ⟨1, (by decide : 1 < 3)⟩ = t.val % 200
      ∧ ((cfgM m hO).win 1).index t ⟨2, (by decide : 2 < 3)⟩ = 0 :=
  (by decide +kernel : ∀ t : Fin grid0.N,
    cc0_transform_1 (grid0.coords t) 0 = t.val / 200 ∧ cc0_transform_1 (grid0.coords t) 1 = t.val % 200
      ∧ cc0_transform_1 (grid0.coords t) 2 = 0)

/-! ## The blocks -/

/-- Window 0's block at point `t`, entry `(0, x, y)`: the pixel of image `t / 200` at row `y`, column `x`. -/
theorem img_block_apply (hO : Ok m) (c : Dev nD) (t : Fin (cfgM m hO).N) (y : S1x512x512.Idx) :
    (iblk m hO c 0 t : Vec Ideal S1x512x512 .f32) y
      = m ((c : Thread nD τ).loc main_arg0) (ix4 (imgAt t) (0 : Fin 1) (y 2) (y 1)) := by
  obtain ⟨i0, i1, i2⟩ := index0 m hO t
  have h0 : (y 0).val < 1 := (y 0).isLt
  unfold iblk
  show V m c main_v1 ((((cfgM m hO).win 0).blk t).view.emb y) = _
  refine (congrFun (V_main_v1 m c) _).trans ?_
  refine Eq.trans (congrArg _ (?_ : _ = ix3 (imgAt t) (y 1) (y 2))) (swapped_apply _ _ _ (imgAt t) (y 1) (y 2))
  funext a
  apply Fin.ext
  match a with
  | ⟨0, _⟩ =>
    show ((cfgM m hO).win 0).index t ⟨0, (by decide : 0 < 3)⟩ * 1 + 1 * (y 0).val = t.val / 200
    rw [i0]; omega
  | ⟨1, _⟩ =>
    show ((cfgM m hO).win 0).index t ⟨1, (by decide : 1 < 3)⟩ * 512 + 1 * (y 1).val = (y 1).val
    rw [i1]; omega
  | ⟨2, _⟩ =>
    show ((cfgM m hO).win 0).index t ⟨2, (by decide : 2 < 3)⟩ * 512 + 1 * (y 2).val = (y 2).val
    rw [i2]; omega

/-- Window 0's block at point `t` is image `t / 200` with rows and columns exchanged. -/
theorem img_block (hO : Ok m) (c : Dev nD) (t : Fin (cfgM m hO).N) :
    (iblk m hO c 0 t : Vec Ideal S1x512x512 .f32) = imgBlk (m ((c : Thread nD τ).loc main_arg0)) (imgAt t) :=
  funext fun y => img_block_apply m hO c t y

/-- Window 1's block at point `t`, entry `(0, j, k)`: entry `k` of comparison `1000 (t % 200) + j` of image `t / 200`. -/
theorem rows_block_apply (hO : Ok m) (c : Dev nD) (t : Fin (cfgM m hO).N) (y : S1x1000x6.Idx) :
    (iblk m hO c 1 t : Vec Ideal S1x1000x6 .f32) y
      = m ((c : Thread nD τ).loc main_arg1) (ix3 (imgAt t) (row (runAt t) (y 1)) (y 2)) := by
  obtain ⟨i0, i1, i2⟩ := index1 m hO t
  have h0 : (y 0).val < 1 := (y 0).isLt
  unfold iblk
  show V m c main_arg1 ((((cfgM m hO).win 1).blk t).view.emb y) = _
  refine (congrFun (V_main_arg1 m c) _).trans ?_
  refine congrArg (m ((c : Thread nD τ).loc main_arg1)) (funext fun a => Fin.ext ?_)
  match a with
  | ⟨0, _⟩ =>
    show ((cfgM m hO).win 1).index t ⟨0, (by decide : 0 < 3)⟩ * 1 + 1 * (y 0).val = t.val / 200
    rw [i0]; omega
  | ⟨1, _⟩ =>
    show ((cfgM m hO).win 1).index t ⟨1, (by decide : 1 < 3)⟩ * 1000 + 1 * (y 1).val = 1000 * (t.val % 200) + (y 1).val
    rw [i1]; omega
  | ⟨2, _⟩ =>
    show ((cfgM m hO).win 1).index t ⟨2, (by decide : 2 < 3)⟩ * 6 + 1 * (y 2).val = (y 2).val
    rw [i2]; omega

/-- Window 1's block at point `t` is run `t % 200` of the comparisons of image `t / 200`. -/
theorem rows_block (hO : Ok m) (c : Dev nD) (t : Fin (cfgM m hO).N) :
    (iblk m hO c 1 t : Vec Ideal S1x1000x6 .f32) = rowsBlk (m ((c : Thread nD τ).loc main_arg1)) (imgAt t) (runAt t) :=
  funext fun y => rows_block_apply m hO c t y

/-! ## The count word -/

/-- The word the body loads from the table of counts at point `t` is the count of image `t / 200`. -/
theorem count_word (c : Dev nD) (t : Fin grid0.N) :
    Cert.Pieces.countWord c (grid0.coords t) (tbl m 0) = m ((c : Thread nD τ).loc main_arg2) (ix1 (imgAt t)) := by
  obtain rfl : c = 0 := Subsingleton.elim _ _
  have hf : (Shape.Idx.first (show 0 < S1.numel by decide) (0 : Fin 1)).val = 0 := by
    have := (Shape.Idx.first (show 0 < S1.numel by decide) (0 : Fin 1)).isLt
    have e : S1.size (0 : Fin 1) = 1 := by decide
    omega
  unfold Cert.Pieces.countWord
  refine (Cert.RowOps.ld_unit_apply _ _ _ _ _ (ix1 (imgAt t)) (fun a => ?_)).trans ?_
  · match a with
    | ⟨0, _⟩ =>
      show t.val / 200 = k0_off1 (grid0.coords t) 0 + (Shape.Idx.first (show 0 < S1.numel by decide) (0 : Fin 1)).val
      rw [k0_off1_eq, hf, Nat.add_zero]
      exact (coords0 t).symm
  · show V m (0 : Dev nD) main_arg2 (ix1 (imgAt t)) = _
    rw [V_main_arg2]

end Cert.Blocks

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.Pick.lean ====
/-
  Reading one entry of a 512 × 512 array by two products instead of an indexed read.

  For a vector of words w, the array oneAt w has a single one in each row: row j has it at column w[j]
  (the column number along the row is compared with the word spread along the row). The product of oneAt xw
  with X has, in row j, row xw[j] of X; multiplied entrywise by oneAt yw and summed along the row it leaves the
  single entry X[xw[j], yw[j]]. Over the extended reals 1 * a = a and 0 * a = 0 for every a, so exactly one term
  of each sum survives.
-/
import proofs.«401918_j15994458211238_3_alg».proof.Proof.Gen.KernelIdeal.Skeleton
import proofs.«401918_j15994458211238_3_alg».proof.Proof.LibRowOps
import proofs.«401918_j15994458211238_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Pick

open Idealize.ShloMosaic Idealize.ShloMosaic.ValueIdx Cert.KernelIdeal Cert.KernelIdeal.Gen

/-- The 0/1 array whose row j has its one at column w[j]. -/
def oneAt (w : IVec S1000 32) : FVec Ideal S1000x512 .f32 :=
  sitofp .f32 (extui 32 (cmpi .eq (iota .tc S1000x512 32 [1] iota_S1000x512_d1_w32)
    (broadcastTo S1000x512 (shapeCast S1000x1 w shapeCasts_S1000_S1000x1) broadcasts_S1000x1_S1000x512)) natLt_1_32)

/-- A one-bit truth value widened to a word and read as a signed integer: one, … -/
theorem bit_one : (((1#1 : BitVec 1).setWidth 32).toInt : ℝ) = 1 := by
  have : ((1#1 : BitVec 1).setWidth 32).toInt = 1 := by decide
  rw [this]; norm_num
/-- … or zero. -/
theorem bit_zero : (((0#1 : BitVec 1).setWidth 32).toInt : ℝ) = 0 := by
  have : ((0#1 : BitVec 1).setWidth 32).toInt = 0 := by decide
  rw [this]; norm_num

/-- A column number below 512, as a word, is the word w exactly when it is w read as a natural. -/
theorem ofNat_eq_iff (k : ℕ) (hk : k < 512) (w : BitVec 32) : BitVec.ofNat 32 k = w ↔ k = w.toNat := by
  constructor
  · intro h
    rw [← h, BitVec.toNat_ofNat]
    exact (Nat.mod_eq_of_lt (by omega)).symm
  · intro h
    rw [h]
    apply BitVec.eq_of_toNat_eq
    rw [BitVec.toNat_ofNat]
    exact Nat.mod_eq_of_lt w.isLt

/-- Entry (j, k) of oneAt w: one when k is the word of row j, else zero. -/
theorem oneAt_apply (w : IVec S1000 32) (j : Fin 1000) (k : Fin 512) :
    oneAt w (ix2 j k) = if k.val = (w (ix1 j)).toNat then 1 else 0 := by
  have hiota : iota .tc S1000x512 32 [1] iota_S1000x512_d1_w32 (ix2 j k) = BitVec.ofNat 32 k.val :=
    iota_single_apply .tc S1000x512 32 1 iota_S1000x512_d1_w32 (ix2 j k)
  have hb : broadcastTo S1000x512 (shapeCast S1000x1 w shapeCasts_S1000_S1000x1) broadcasts_S1000x1_S1000x512 (ix2 j k)
      = w (ix1 j) := by
    rw [Cert.RowOps.broadcastTo_a1_ab_apply, Cert.RowOps.shapeCast_a_a1_apply]
  show ((((IntOp.cmpi .eq (iota .tc S1000x512 32 [1] iota_S1000x512_d1_w32 (ix2 j k))
      (broadcastTo S1000x512 (shapeCast S1000x1 w shapeCasts_S1000_S1000x1) broadcasts_S1000x1_S1000x512 (ix2 j k))).setWidth 32).toInt : ℝ) : EReal) = _
  rw [hiota, hb]
  by_cases h : k.val = (w (ix1 j)).toNat
  · have h1 : IntOp.cmpi .eq (BitVec.ofNat 32 k.val) (w (ix1 j)) = 1#1 := by
      rw [(ofNat_eq_iff k.val k.isLt _).mpr h]
      simp only [IntOp.cmpi, beq_self_eq_true]
      rfl
    rw [if_pos h, h1, bit_one]
    rfl
  · have hne : BitVec.ofNat 32 k.val ≠ w (ix1 j) := fun e => h ((ofNat_eq_iff k.val k.isLt _).mp e)
    have h0 : IntOp.cmpi .eq (BitVec.ofNat 32 k.val) (w (ix1 j)) = 0#1 := by
      simp only [IntOp.cmpi, beq_eq_false_iff_ne.mpr hne]
      rfl
    rw [if_neg h, h0, bit_zero]
    rfl

/-- Entry (j, c) of the product of oneAt xw with X: entry (xw[j], c) of X. -/
theorem rowPick (X : FVec Ideal S512x512 .f32) (xw : IVec S1000 32) (j : Fin 1000) (c : Fin 512)
    (hx : (xw (ix1 j)).toNat < 512) :
    matmul dot_S1000x512_S512x512_S1000x512_1_0_0_1_n_n (some .fp32) (oneAt xw) X (constant S1000x512 .f32 0x00000000#32) (ix2 j c)
      = X (ix2 (⟨(xw (ix1 j)).toNat, hx⟩ : Fin 512) c) := by
  refine (Cert.Lib.PlainDot.matmul_plain_zero_apply (m := 1000) (k := 512) (n := 512) (some .fp32) (oneAt xw) X j c).trans ?_
  rw [Finset.sum_eq_single (⟨(xw (ix1 j)).toNat, hx⟩ : Fin 512)]
  · rw [oneAt_apply, if_pos rfl, one_mul]
  · intro b _ hb
    rw [oneAt_apply, if_neg (fun e => hb (Fin.ext e)), zero_mul]
  · intro h; exact absurd (Finset.mem_univ _) h

/-- Row j of the masked product, summed: the entry of X the two words of row j name. -/
theorem pick (X : FVec Ideal S512x512 .f32) (xw yw : IVec S1000 32) (j : Fin 1000)
    (hx : (xw (ix1 j)).toNat < 512) (hy : (yw (ix1 j)).toNat < 512) :
    multiReduction .add [1] S1000
        (mulf (oneAt yw) (matmul dot_S1000x512_S512x512_S1000x512_1_0_0_1_n_n (some .fp32) (oneAt xw) X (constant S1000x512 .f32 0x00000000#32)))
        0x00000000#32 reduces_S1000x512_S1000 (.inl rfl) rfl (ix1 j)
      = X (ix2 (⟨(xw (ix1 j)).toNat, hx⟩ : Fin 512) (⟨(yw (ix1 j)).toNat, hy⟩ : Fin 512)) := by
  have hsum := Cert.RowOps.laneSum_apply (a := 1000) (b := 512)
    (mulf (oneAt yw) (matmul dot_S1000x512_S512x512_S1000x512_1_0_0_1_n_n (some .fp32) (oneAt xw) X (constant S1000x512 .f32 0x00000000#32)))
    reduces_S1000x512_S1000 (.inl rfl) rfl j
  refine hsum.trans ?_
  rw [Finset.sum_eq_single (⟨(yw (ix1 j)).toNat, hy⟩ : Fin 512)]
  · rw [mulf_apply, oneAt_apply, if_pos rfl, one_mul, rowPick X xw j _ hx]
  · intro b _ hb
    rw [mulf_apply, oneAt_apply, if_neg (fun e => hb (Fin.ext e)), zero_mul]
  · intro h; exact absurd (Finset.mem_univ _) h

end Cert.Pick

end
-- ==== Proof.Chunk.lean ====
/-
  What one grid point adds to the two running sums.

  At grid point (b, m) the kernel holds the thousand comparisons of run m of image b as a [1, 1000, 6] block, image b
  with rows and columns exchanged as a [1, 512, 512] block, and the count word of image b. Row j of the comparison
  block is comparison row m j; its six entries are read by slicing a column and dropping the unit axis. A lane is
  live when its comparison number 1000·m + j, as a word, is below the count word; the lane's weight is multiplied by
  that 0/1 value. The two scalars the grid point produces are products of the [1, 1000] row of such lane values with
  a [1000, 1] column of ones: over the extended reals, the plain sums over the thousand lanes of the live weights,
  and of the live weights of the misses.
-/
import proofs.«401918_j15994458211238_3_alg».proof.Proof.Gen.KernelIdeal.Skeleton
import proofs.«401918_j15994458211238_3_alg».proof.Proof.Tally
import proofs.«401918_j15994458211238_3_alg».proof.Proof.LibRowOps
import proofs.«401918_j15994458211238_3_alg».proof.Proof.LibPlainDot
import proofs.«401918_j15994458211238_3_alg».proof.Proof.Pick
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.Chunk

open Idealize.ShloMosaic Idealize.ShloMosaic.ValueIdx Cert.KernelIdeal Cert.KernelIdeal.Gen Cert.Tally

/-- A column cast to a vector: entry i of the vector is entry (i, 0) of the column. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column k of the comparison block, as a vector, read at lane j: entry k of row j of the block. -/
theorem column_apply (X : Vec Ideal S1x1000x6 .f32) (o : Nat) (h : S1000x6.Slices ![0, o] S1000x1) (k : Fin 6)
    (hk : k.val = o) (j : Fin 1000) :
    shapeCast S1000 (extractStridedSlice S1000x1 ![0, o] (k0_pay7 X) h) shapeCasts_S1000x1_S1000 (ix1 j)
      = X (ix3 (0 : Fin 1) j k) := by
  refine (shapeCast_a1_a_apply _ _ j).trans ?_
  refine (slice2_axis1_apply o (k0_pay7 X) h j (0 : Fin 1) k (by rw [hk]; rfl)).trans ?_
  exact shapeCast_1ab_ab_apply X shapeCasts_S1x1000x6_S1000x6 j k

/-- Entry k of row j of the block of run m of image b is entry k of comparison row m j. -/
theorem rowsBlk_apply (c : Cmp) (b : Fin 16) (m : Fin 200) (j : Fin 1000) (k : Fin 6) :
    rowsBlk c b m (ix3 (0 : Fin 1) j k) = c (ix3 b (row m j) k) := rfl

/-- The weight column at lane j. -/
theorem weight_apply (c : Cmp) (b : Fin 16) (m : Fin 200) (j : Fin 1000) :
    k0_pay11 (F := Ideal) (rowsBlk c b m) (ix1 j) = c (ix3 b (row m j) 5) := by
  unfold k0_pay11
  exact column_apply (rowsBlk c b m) 5 slices_S1000x6_o0_5_S1000x1 5 rfl j

/-- The second pixel's row word at lane j. -/
theorem y2_apply (c : Cmp) (b : Fin 16) (m : Fin 200) (j : Fin 1000) :
    k0_pay9 (F := Ideal) (rowsBlk c b m) (ix1 j) = word c b (row m j) 3 := by
  unfold k0_pay9
  show Ideal.fptosi 32 _ = _
  exact congrArg (Ideal.fptosi 32) (column_apply (rowsBlk c b m) 3 slices_S1000x6_o0_3_S1000x1 3 rfl j)

/-- The label word at lane j. -/
theorem label_apply (c : Cmp) (b : Fin 16) (m : Fin 200) (j : Fin 1000) :
    k0_pay10 (F := Ideal) (rowsBlk c b m) (ix1 j) = word c b (row m j) 4 := by
  unfold k0_pay10
  show Ideal.fptosi 32 _ = _
  exact congrArg (Ideal.fptosi 32) (column_apply (rowsBlk c b m) 4 slices_S1000x6_o0_4_S1000x1 4 rfl j)

/-- The transposed image at (x, y): the pixel at row y, column x. -/
theorem image_apply (v : Img) (b : Fin 16) (x y : Fin 512) :
    k0_pay8 (F := Ideal) (imgBlk v b) (ix2 x y) = v (ix4 b (0 : Fin 1) y x) := by
  unfold k0_pay8
  exact shapeCast_1ab_ab_apply (imgBlk v b) shapeCasts_S1x512x512_S512x512 x y

/-- The comparison number of lane j of run m, as a word: 1000·m + j, below 2³², so nothing wraps. -/
theorem lane_word (m : Fin 200) (j : Fin 1000) :
    Scalar.muli (BitVec.ofNat 32 m.val) 1000#32 + BitVec.ofNat 32 j.val = BitVec.ofNat 32 (row m j).val := by
  apply BitVec.eq_of_toNat_eq
  show ((BitVec.ofNat 32 m.val * 1000#32) + BitVec.ofNat 32 j.val).toNat = (BitVec.ofNat 32 (1000 * m.val + j.val)).toNat
  rw [BitVec.toNat_add, BitVec.toNat_mul, BitVec.toNat_ofNat, BitVec.toNat_ofNat, BitVec.toNat_ofNat, BitVec.toNat_ofNat]
  have hm := m.isLt
  have hj := j.isLt
  omega

/-- The lane numbers 0 … 999 as a vector of words. -/
theorem lanes_apply (j : Fin 1000) :
    shapeCast S1000 (iota .tc S1x1000 32 [1] iota_S1x1000_d1_w32) shapeCasts_S1x1000_S1000 (ix1 j) = BitVec.ofNat 32 j.val := by
  refine (shapeCast_1a_a_apply _ _ j).trans ?_
  exact iota_single_apply .tc S1x1000 32 1 iota_S1x1000_d1_w32 (ix2 (0 : Fin 1) j)

/-- The live weight at lane j: the lane's weight times the 0/1 value of "comparison row m j is among the first q". -/
theorem liveWeight_apply (m : Fin 200) (w : FVec Ideal S1000 .f32) (q : BitVec 32) (j : Fin 1000) :
    k0_pay14 (F := Ideal) (BitVec.ofNat 32 m.val) w q (ix1 j) = w (ix1 j) * live q (row m j) := by
  unfold k0_pay14
  show w (ix1 j) * bitR (IntOp.cmpi .slt (Scalar.muli (BitVec.ofNat 32 m.val) 1000#32
      + shapeCast S1000 (iota .tc S1x1000 32 [1] iota_S1x1000_d1_w32) shapeCasts_S1x1000_S1000 (ix1 j)) q) = _
  rw [lanes_apply, lane_word]
  rfl

/-- Every entry of the ones column is the extended real one. -/
theorem ones_apply (i : S1000x1.Idx) : k0_pay15 (F := Ideal) i = 1 := by
  unfold k0_pay15
  show Ideal.ofBits .f32 0x3F800000#32 = 1
  exact Ideal.ofBits_one_f32

/-- A [1, 1000] row times the ones column, into the zero accumulator, read at its one entry: the sum of the row. -/
theorem rowSum (x : FVec Ideal S1000 .f32) :
    extractAt ![0, 0] (matmul dot_S1x1000_S1000x1_S1x1_1_0_0_1_n_n (some .fp32)
        (shapeCast S1x1000 x shapeCasts_S1000_S1x1000) (k0_pay15 (F := Ideal)) (constant S1x1 .f32 0x00000000#32)) inpos_S1x1_p0_0
      = ∑ j : Fin 1000, x (ix1 j) := by
  have h := Cert.Lib.PlainDot.matmul_plain_zero_apply (m := 1) (k := 1000) (n := 1) (some .fp32)
    (shapeCast S1x1000 x shapeCasts_S1000_S1x1000) (k0_pay15 (F := Ideal)) (0 : Fin 1) (0 : Fin 1)
  refine Eq.trans ?_ (h.trans (Finset.sum_congr rfl fun j _ => ?_))
  · rfl
  · rw [ones_apply, mul_one]
    exact shapeCast_a_1a_apply x shapeCasts_S1000_S1x1000 (0 : Fin 1) j

/-- The first scalar of grid point (b, m): the sum of the live weights of run m of image b. -/
theorem weight_sum (c : Cmp) (q : BitVec 32) (b : Fin 16) (m : Fin 200) :
    k0_pay16 (F := Ideal) (BitVec.ofNat 32 m.val) (k0_pay11 (rowsBlk c b m)) q = ∑ j : Fin 1000, wt c q b (row m j) := by
  unfold k0_pay16
  refine (rowSum _).trans (Finset.sum_congr rfl fun j _ => ?_)
  rw [liveWeight_apply, weight_apply]
  rfl

/-- Column o of the comparison block converted to words. -/
def words (X : Vec Ideal S1x1000x6 .f32) (o : Nat) (h : S1000x6.Slices ![0, o] S1000x1) : IVec S1000 32 :=
  fptosi 32 (shapeCast S1000 (extractStridedSlice S1000x1 ![0, o] (k0_pay7 X) h) shapeCasts_S1000x1_S1000)

/-- Word k of lane j of the block of run m of image b is word k of comparison row m j. -/
theorem words_apply (c : Cmp) (b : Fin 16) (m : Fin 200) (o : Nat) (h : S1000x6.Slices ![0, o] S1000x1) (k : Fin 6)
    (hk : k.val = o) (j : Fin 1000) : words (rowsBlk c b m) o h (ix1 j) = word c b (row m j) k := by
  show Ideal.fptosi 32 _ = _
  exact congrArg (Ideal.fptosi 32) (column_apply (rowsBlk c b m) o h k hk j)

/-- On the image nothing is held back: the pixel named by two words below 512 is the entry at those two numbers. -/
theorem pixel_eq (v : Img) (b : Fin 16) (x y : BitVec 32) (hx : x.toNat < 512) (hy : y.toNat < 512) :
    v (ix4 b (0 : Fin 1) (⟨y.toNat, hy⟩ : Fin 512) (⟨x.toNat, hx⟩ : Fin 512)) = pixel v b y x := by
  unfold pixel
  have ey : (⟨y.toNat, hy⟩ : Fin 512) = ⟨min y.toNat 511, by omega⟩ := Fin.ext (by show y.toNat = min y.toNat 511; omega)
  have ex : (⟨x.toNat, hx⟩ : Fin 512) = ⟨min x.toNat 511, by omega⟩ := Fin.ext (by show x.toNat = min x.toNat 511; omega)
  rw [ey, ex]

/-- The entry of the transposed image picked by two word vectors, at lane j: the pixel the two words name. -/
theorem picked_apply (v : Img) (b : Fin 16) (xw yw : IVec S1000 32) (j : Fin 1000)
    (hx : (xw (ix1 j)).toNat < 512) (hy : (yw (ix1 j)).toNat < 512) :
    multiReduction .add [1] S1000
        (mulf (Cert.Pick.oneAt yw) (matmul dot_S1000x512_S512x512_S1000x512_1_0_0_1_n_n (some .fp32) (Cert.Pick.oneAt xw)
          (k0_pay8 (F := Ideal) (imgBlk v b)) (constant S1000x512 .f32 0x00000000#32)))
        0x00000000#32 reduces_S1000x512_S1000 (.inl rfl) rfl (ix1 j)
      = pixel v b (yw (ix1 j)) (xw (ix1 j)) := by
  refine (Cert.Pick.pick (k0_pay8 (F := Ideal) (imgBlk v b)) xw yw j hx hy).trans ?_
  rw [image_apply]
  exact pixel_eq v b _ _ hx hy

/-- The first pixel of comparison row m j, at lane j. -/
theorem first_apply (v : Img) (c : Cmp) (hc : OnImage c) (b : Fin 16) (m : Fin 200) (j : Fin 1000) :
    k0_pay12 (F := Ideal) (rowsBlk c b m) (imgBlk v b) (ix1 j) = first v c b (row m j) := by
  have ex := words_apply c b m 0 slices_S1000x6_o0_0_S1000x1 0 rfl j
  have ey := words_apply c b m 1 slices_S1000x6_o0_1_S1000x1 1 rfl j
  unfold k0_pay12
  refine (picked_apply v b (words (rowsBlk c b m) 0 slices_S1000x6_o0_0_S1000x1)
    (words (rowsBlk c b m) 1 slices_S1000x6_o0_1_S1000x1) j
    (by rw [ex]; exact hc b (row m j) 0 (by decide)) (by rw [ey]; exact hc b (row m j) 1 (by decide))).trans ?_
  rw [ex, ey]
  rfl

/-- The second pixel of comparison row m j, at lane j. -/
theorem second_apply (v : Img) (c : Cmp) (hc : OnImage c) (b : Fin 16) (m : Fin 200) (j : Fin 1000) :
    multiReduction .add [1] S1000
        (mulf (Cert.Pick.oneAt (k0_pay9 (F := Ideal) (rowsBlk c b m)))
          (matmul dot_S1000x512_S512x512_S1000x512_1_0_0_1_n_n (some .fp32) (k0_pay13 (F := Ideal) (rowsBlk c b m))
            (k0_pay8 (F := Ideal) (imgBlk v b)) (constant S1000x512 .f32 0x00000000#32)))
        0x00000000#32 reduces_S1000x512_S1000 (.inl rfl) rfl (ix1 j)
      = second v c b (row m j) := by
  have ex := words_apply c b m 2 slices_S1000x6_o0_2_S1000x1 2 rfl j
  have ey := y2_apply c b m j
  refine (picked_apply v b (words (rowsBlk c b m) 2 slices_S1000x6_o0_2_S1000x1) (k0_pay9 (F := Ideal) (rowsBlk c b m)) j
    (by rw [ex]; exact hc b (row m j) 2 (by decide)) (by rw [ey]; exact hc b (row m j) 3 (by decide))).trans ?_
  rw [ex, ey]
  rfl

/-- The second scalar of grid point (b, m): the sum of the live weights of the misses of run m of image b. -/
theorem missed_sum (v : Img) (c : Cmp) (hc : OnImage c) (q : BitVec 32) (b : Fin 16) (m : Fin 200) :
    k0_pay17 (F := Ideal) (BitVec.ofNat 32 m.val) (k0_pay8 (imgBlk v b)) (k0_pay9 (F := Ideal) (rowsBlk c b m))
        (k0_pay10 (F := Ideal) (rowsBlk c b m))
        (k0_pay11 (rowsBlk c b m)) (iota .tc S1000x512 32 [1] iota_S1000x512_d1_w32) (k0_pay12 (rowsBlk c b m) (imgBlk v b))
        (k0_pay13 (rowsBlk c b m)) (constant S1000x512 .f32 0x00000000#32) q
      = ∑ j : Fin 1000, wtm v c q b (row m j) := by
  unfold k0_pay17
  refine (rowSum _).trans (Finset.sum_congr rfl fun j _ => ?_)
  show k0_pay14 (F := Ideal) (BitVec.ofNat 32 m.val) (k0_pay11 (rowsBlk c b m)) q (ix1 j)
      * bitR (IntOp.cmpi .ne
          (verdict (k0_pay12 (F := Ideal) (rowsBlk c b m) (imgBlk v b) (ix1 j))
            (multiReduction .add [1] S1000
              (mulf (Cert.Pick.oneAt (k0_pay9 (F := Ideal) (rowsBlk c b m)))
                (matmul dot_S1000x512_S512x512_S1000x512_1_0_0_1_n_n (some .fp32) (k0_pay13 (F := Ideal) (rowsBlk c b m))
                  (k0_pay8 (F := Ideal) (imgBlk v b)) (constant S1000x512 .f32 0x00000000#32)))
              0x00000000#32 reduces_S1000x512_S1000 (.inl rfl) rfl (ix1 j)))
          (k0_pay10 (F := Ideal) (rowsBlk c b m) (ix1 j))) = _
  rw [liveWeight_apply, weight_apply, first_apply v c hc, second_apply v c hc, label_apply]
  rfl

end Cert.Chunk

end
-- ==== Proof.Points.lean ====
/-
  Sixteen lanes, 3200 grid points. Point `k` belongs to image `k / 200`; at each point the accumulator's lane `i`
  gains (the indicator that `i` is the point's image) times the point's partial sum. Summed over all points, lane `i`
  holds the two hundred partial sums of its own image and nothing else.
-/
import proofs.«401918_j15994458211238_3_alg».proof.Proof.Tally
import Idealize.ShloMosaic.Lib.StableHlo.Predicate
import Mathlib.Algebra.BigOperators.Fin

noncomputable section

open scoped BigOperators

namespace Cert.Points

open Idealize.ShloMosaic Cert.Tally

/-- Two naturals below 2³² with the same 32-bit word are equal. -/
theorem ofNat_inj {a b : ℕ} (ha : a < 2 ^ 32) (hb : b < 2 ^ 32) (h : BitVec.ofNat 32 a = BitVec.ofNat 32 b) :
    a = b := by
  have e := congrArg BitVec.toNat h
  simp only [BitVec.toNat_ofNat] at e
  omega

/-- The indicator that lane `i` is the image of grid point `k`: `1` when `k / 200 = i`, else `0`. -/
theorem lane_ind (i : Fin 16) (k : ℕ) (hk : k < 3200) :
    bitR (IntOp.cmpi .eq (BitVec.ofNat 32 i.val) (BitVec.ofNat 32 (k / 200))) = if k / 200 = i.val then 1 else 0 := by
  by_cases h : k / 200 = i.val
  · rw [if_pos h, h, StableHlo.Predicate.cmpi_eq_iff.2 rfl, bitR_one]
  · rw [if_neg h]
    have hne : ¬ IntOp.cmpi .eq (BitVec.ofNat 32 i.val) (BitVec.ofNat 32 (k / 200)) = 1#1 := fun e =>
      h (ofNat_inj (by omega) (by omega) (StableHlo.Predicate.cmpi_eq_iff.1 e)).symm
    rw [ValueIdx.eq_zero_of_ne_one hne, bitR_zero]

/-- Over the 3200 grid points, sixteen images of two hundred points each, lane `i` of the accumulator collects
    exactly the two hundred partial sums of image `i`: every other point contributes `0 * p k = 0`. -/
theorem lane_total (p : ℕ → EReal) (i : Fin 16) :
    ∑ k ∈ Finset.range 3200, bitR (IntOp.cmpi .eq (BitVec.ofNat 32 i.val) (BitVec.ofNat 32 (k / 200))) * p k
      = ∑ m : Fin 200, p (200 * i.val + m.val) := by
  have hi := i.isLt
  rw [Finset.sum_congr rfl (fun k hk => by rw [lane_ind i k (Finset.mem_range.1 hk), ite_mul, one_mul, zero_mul]),
    ← Finset.sum_filter]
  refine Eq.trans ?_ (Fin.sum_univ_eq_sum_range (fun m => p (200 * i.val + m)) 200).symm
  refine Finset.sum_nbij' (fun k => k - 200 * i.val) (fun m => 200 * i.val + m) ?_ ?_ ?_ ?_ ?_
  · intro k hk
    simp only [Finset.mem_filter, Finset.mem_range] at hk ⊢
    omega
  · intro m hm
    simp only [Finset.mem_filter, Finset.mem_range] at hm ⊢
    omega
  · intro k hk
    simp only [Finset.mem_filter, Finset.mem_range] at hk
    show 200 * i.val + (k - 200 * i.val) = k
    omega
  · intro m hm
    show 200 * i.val + m - 200 * i.val = m
    omega
  · intro k hk
    simp only [Finset.mem_filter, Finset.mem_range] at hk
    show p k = p (200 * i.val + (k - 200 * i.val))
    congr 1
    omega

end Cert.Points

end
-- ==== Proof.Totals.lean ====
/-
  The two accumulators in closed form, and the output block as the scores.

  Lane `j` of an accumulator after point `n` is the sum, over the points `k ≤ n`, of `[k belongs to image j] · (the
  partial sum of point k)`. Over all 3200 points that is the sum of image `j`'s two hundred partial sums; each
  partial sum is the sum over a run of a thousand comparisons; and the two hundred runs are all of the image's
  comparisons. So the last point's quotient is the image's score.
-/
import proofs.«401918_j15994458211238_3_alg».proof.Proof.Accum
import proofs.«401918_j15994458211238_3_alg».proof.Proof.Lanes
import proofs.«401918_j15994458211238_3_alg».proof.Proof.Blocks
import proofs.«401918_j15994458211238_3_alg».proof.Proof.Chunk
import proofs.«401918_j15994458211238_3_alg».proof.Proof.Points
import proofs.«401918_j15994458211238_3_alg».proof.Proof.Tally

noncomputable section

open scoped BigOperators
open Idealize.ShloMosaic Idealize.ShloMosaic.TcCoe Idealize.ShloMosaic.ValueIdx Idealize.SL.Sem

namespace Cert.Totals

open Cert.KernelIdeal Cert.KernelIdeal.Gen Cert.Tally Cert.Pieces Cert.Accum Cert.Blocks

variable (m : (ℓ : Loc nD τ sig) → Buf (Elt Ideal) ℓ) (hO : Ok m) (c : Dev nD)

/-- The three argument arrays. -/
abbrev imgs : Img := m ((c : Thread nD τ).loc main_arg0)
abbrev cmps : Cmp := m ((c : Thread nD τ).loc main_arg1)
abbrev cnts : Cnt := m ((c : Thread nD τ).loc main_arg2)

/-- A per-point quantity, zero past the grid. -/
def ext (f : (n : ℕ) → n < (cfgM m hO).N → EReal) (k : ℕ) : EReal := if h : k < (cfgM m hO).N then f k h else 0

/-- An accumulator that starts from a zero vector and is bumped by `p k` at point `k`, read at lane `j` after point
    `n`: the sum over the points so far of the indicator of the lane's image times the point's partial sum. -/
theorem acc_lane (p : (n : ℕ) → n < (cfgM m hO).N → EReal) (z : Vec Ideal S16 .f32) (hz : ∀ j : Fin 16, z (ix1 j) = 0)
    (acc : (n : ℕ) → n < (cfgM m hO).N → Vec Ideal S16 .f32)
    (h0 : ∀ h, acc 0 h = bump (grid0.coords ⟨0, h⟩) (p 0 h) z)
    (hs : ∀ n h, acc (n + 1) h = bump (grid0.coords ⟨n + 1, h⟩) (p (n + 1) h) (acc n (Nat.lt_of_succ_lt h))) :
    ∀ (n : ℕ) (h : n < (cfgM m hO).N) (j : Fin 16), acc n h (ix1 j)
      = ∑ k ∈ Finset.range (n + 1), bitR (IntOp.cmpi .eq (BitVec.ofNat 32 j.val) (BitVec.ofNat 32 (k / 200))) * ext m hO p k
  | 0, h, j => by
    rw [h0, Lanes.bump_apply, hz, zero_add, Finset.sum_range_one, coords0 ⟨0, h⟩]
    simp only [ext, dif_pos h]
  | n + 1, h, j => by
    rw [hs, Lanes.bump_apply, acc_lane p z hz acc h0 hs n _ j, Finset.sum_range_succ _ (n + 1), coords0 ⟨n + 1, h⟩]
    simp only [ext, dif_pos h]

/-- The partial sum of live weights of point `t` is the sum over its run of comparisons. -/
theorem pw_eq (t : Fin (cfgM m hO).N) :
    pw m hO c t.val t.isLt = ∑ j : Fin 1000, wt (cmps m c) (cnts m c (ix1 (imgAt t))) (imgAt t) (row (runAt t) j) := by
  have e1 : (iblk m hO c 1 t : Vec Ideal S1x1000x6 .f32) = rowsBlk (cmps m c) (imgAt t) (runAt t) := rows_block m hO c t
  have e2 : countWord c (grid0.coords t) (tbl m 0) = cnts m c (ix1 (imgAt t)) := count_word m c t
  have e3 : (grid0.coords t 1).val = (runAt t).val := coords1 t
  show k0_pay16 (F := Ideal) (BitVec.ofNat 32 (grid0.coords t 1).val) (k0_pay11 (iblk m hO c 1 t : Vec Ideal S1x1000x6 .f32))
      (countWord c (grid0.coords t) (tbl m 0)) = _
  rw [e1, e2, e3]
  exact Chunk.weight_sum (cmps m c) (cnts m c (ix1 (imgAt t))) (imgAt t) (runAt t)

/-- The partial sum of live missed weights of point `t`, likewise (the coordinates on the image). -/
theorem pwm_eq (hc : OnImage (cmps m c)) (t : Fin (cfgM m hO).N) :
    pwm m hO c t.val t.isLt
      = ∑ j : Fin 1000, wtm (imgs m c) (cmps m c) (cnts m c (ix1 (imgAt t))) (imgAt t) (row (runAt t) j) := by
  have e0 : (iblk m hO c 0 t : Vec Ideal S1x512x512 .f32) = imgBlk (imgs m c) (imgAt t) := img_block m hO c t
  have e1 : (iblk m hO c 1 t : Vec Ideal S1x1000x6 .f32) = rowsBlk (cmps m c) (imgAt t) (runAt t) := rows_block m hO c t
  have e2 : countWord c (grid0.coords t) (tbl m 0) = cnts m c (ix1 (imgAt t)) := count_word m c t
  have e3 : (grid0.coords t 1).val = (runAt t).val := coords1 t
  show k0_pay17 (F := Ideal) (BitVec.ofNat 32 (grid0.coords t 1).val) (k0_pay8 (iblk m hO c 0 t : Vec Ideal S1x512x512 .f32))
      (k0_pay9 (F := Ideal) (iblk m hO c 1 t : Vec Ideal S1x1000x6 .f32)) (k0_pay10 (F := Ideal) (iblk m hO c 1 t : Vec Ideal S1x1000x6 .f32))
      (k0_pay11 (iblk m hO c 1 t : Vec Ideal S1x1000x6 .f32)) (iota .tc S1000x512 32 [1] iota_S1000x512_d1_w32)
      (k0_pay12 (iblk m hO c 1 t : Vec Ideal S1x1000x6 .f32) (iblk m hO c 0 t : Vec Ideal S1x512x512 .f32))
      (k0_pay13 (iblk m hO c 1 t : Vec Ideal S1x1000x6 .f32)) (constant S1000x512 .f32 0x00000000#32)
      (countWord c (grid0.coords t) (tbl m 0)) = _
  rw [e0, e1, e2, e3]
  exact Chunk.missed_sum (imgs m c) (cmps m c) hc (cnts m c (ix1 (imgAt t))) (imgAt t) (runAt t)

/-- Point `200 j + r` belongs to image `j` and is its run `r`. -/
theorem point_lt (j : Fin 16) (r : Fin 200) : 200 * j.val + r.val < (cfgM m hO).N := by
  rw [show (cfgM m hO).N = 3200 from N_0]; omega
theorem imgAt_point (j : Fin 16) (r : Fin 200) : imgAt (⟨200 * j.val + r.val, point_lt m hO j r⟩ : Fin (cfgM m hO).N) = j :=
  Fin.ext (by show (200 * j.val + r.val) / 200 = j.val; omega)
theorem runAt_point (j : Fin 16) (r : Fin 200) : runAt (⟨200 * j.val + r.val, point_lt m hO j r⟩ : Fin (cfgM m hO).N) = r :=
  Fin.ext (by show (200 * j.val + r.val) % 200 = r.val; omega)

/-- Over the whole grid lane `j` of the first accumulator is image `j`'s live weight. -/
theorem total_w (t : Fin (cfgM m hO).N) (ht : t.val % 3200 = 3199) (j : Fin 16) :
    accW m hO c t.val t.isLt (ix1 j) = ∑ n : Fin 200000, wt (cmps m c) (cnts m c (ix1 j)) j n := by
  have hN : (cfgM m hO).N = 3200 := N_0
  have h99 : t.val + 1 = 3200 := by have := t.isLt; omega
  rw [acc_lane m hO (fun n h => pw m hO c n h) (k0_pay5 (F := Ideal)) Lanes.zero_w (accW m hO c) (fun _ => rfl) (fun _ _ => rfl) t.val t.isLt j,
    h99, Points.lane_total, sum_rows]
  refine Finset.sum_congr rfl fun r _ => ?_
  rw [ext, dif_pos (point_lt m hO j r), pw_eq m hO c ⟨200 * j.val + r.val, point_lt m hO j r⟩, imgAt_point, runAt_point]

/-- And lane `j` of the second is image `j`'s live missed weight. -/
theorem total_wm (hc : OnImage (cmps m c)) (t : Fin (cfgM m hO).N) (ht : t.val % 3200 = 3199) (j : Fin 16) :
    accWM m hO c t.val t.isLt (ix1 j) = ∑ n : Fin 200000, wtm (imgs m c) (cmps m c) (cnts m c (ix1 j)) j n := by
  have hN : (cfgM m hO).N = 3200 := N_0
  have h99 : t.val + 1 = 3200 := by have := t.isLt; omega
  rw [acc_lane m hO (fun n h => pwm m hO c n h) (k0_pay6 (F := Ideal)) Lanes.zero_wm (accWM m hO c) (fun _ => rfl) (fun _ _ => rfl) t.val t.isLt j,
    h99, Points.lane_total, sum_rows]
  refine Finset.sum_congr rfl fun r _ => ?_
  rw [ext, dif_pos (point_lt m hO j r), pwm_eq m hO c hc ⟨200 * j.val + r.val, point_lt m hO j r⟩, imgAt_point, runAt_point]

/-- What the last point stores into the output block is the sixteen scores. -/
theorem out_scores (hc : OnImage (cmps m c)) (t : Fin (cfgM m hO).N) (ht : t.val % 3200 = 3199) :
    (outsAt0 m hO c t.val t.isLt).1 = score (imgs m c) (cmps m c) (cnts m c) := by
  rw [out_last m hO c t ht]
  funext i
  obtain ⟨j, rfl⟩ : ∃ j : Fin 16, i = ix1 j := ⟨i 0, eq_ix1 i⟩
  rw [Lanes.quot_apply, total_w m hO c t ht j, total_wm m hO c hc t ht j]
  rfl

end Cert.Totals

end
-- ==== Proof.Result.lean ====
/-
  From the output block to the program's result.

  Only the last grid point writes the 16-entry output block back, and that block is the whole output array; so
  the array ends holding what the last point stored. After the region the program sums the sixteen scores and
  divides by sixteen.
-/
import proofs.«401918_j15994458211238_3_alg».proof.Proof.Accum
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.Result

open Cert.KernelIdeal Cert.KernelIdeal.Gen Cert.Pieces Cert.Accum

theorem last_lt {F : FTy → Type} [FloatOps F] (m : (ℓ : Loc nD τ sig) → Buf (Elt F) ℓ) (hO : Ok m) : 3199 < (cfgM m hO).N := by rw [show (cfgM m hO).N = 3200 from N_0]; decide

/-- A view of a whole buffer through the rectangle of the buffer's own sizes at zero offsets goes through all its
    elements. -/
theorem set_access_unit_zero {sig : RefSig} {κ : Kind} (b : Ref sig κ) {off : Fin b.ty.shape.rank → Nat}
    (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b

variable {F : FTy → Type} [FloatOps F]
variable (m : (ℓ : Loc nD τ sig) → Buf (Elt F) ℓ) (ρ : Dev nD → PrngReg) (hO : Ok m) (c : Dev nD)

/-- The output array's final contents, given what the last point stores: `G`. -/
theorem flushed_eq (G : Buf (Elt F) ((c : Thread nD τ).loc main_v2))
    (hG : ∀ t : Fin (cfgM m hO).N, t.val % 3200 = 3199 → (outsAt0 m hO c t.val t.isLt).1 = G)
    (t : Fin (cfgM m hO).N) (hf : ((cfgM m hO).win 2).flush t = true) :
    (dats m hO 0 c).flushed 2 t = (((cfgM m hO).win 2).blk t).view.read (Elt F) G := by
  have h3 : t.val % 3200 = 3199 := (flush0_2 (adm m hO) t).mp hf
  show ((cfgM m hO).win 2).cut (grid0.coords t) ((dats m hO 0 c).after 2 t) = _
  rw [after0_2, hG t h3]
  have hz' : (fun a : Fin main_v2.ty.shape.rank => ((cfgM m hO).win 2).index t a * main_v2.ty.shape.size a) = fun _ => 0 :=
    funext fun a => match a with | ⟨0, _⟩ => rfl
  exact (Memref.read_access_unit_zero (Elt F) main_v2 hz' (fun a => by rw [congrFun hz' a]; simp) G).symm

/-- Every entry of the output array lies in the block the last point writes back: the block is the whole array. -/
theorem covered (i : ((((cfgM m hO).win 2).arr.view.loc (c.tc : Thread nD τ))).2.ty.Idx) :
    ∃ t : Fin (cfgM m hO).N, ((cfgM m hO).win 2).flush t = true ∧ i ∈ (((cfgM m hO).win 2).blk t).view.set := by
  refine ⟨⟨3199, last_lt m hO⟩, (flush0_2 (adm m hO) ⟨3199, last_lt m hO⟩).mpr (by dsimp only), ?_⟩
  have hz' : (fun a : Fin main_v2.ty.shape.rank => ((cfgM m hO).win 2).index ⟨3199, last_lt m hO⟩ a * main_v2.ty.shape.size a) = fun _ => 0 :=
    funext fun a => match a with | ⟨0, _⟩ => rfl
  have hs : (((cfgM m hO).win 2).blk ⟨3199, last_lt m hO⟩).view.set = Finset.univ :=
    set_access_unit_zero main_v2 hz' (fun a => by rw [congrFun hz' a]; simp)
  exact hs.symm ▸ Finset.mem_univ i

/-- So the output array ends holding what the last point stored. -/
theorem final_out (G : Buf (Elt F) ((c : Thread nD τ).loc main_v2))
    (hG : ∀ t : Fin (cfgM m hO).N, t.val % 3200 = 3199 → (outsAt0 m hO c t.val t.isLt).1 = G) :
    (dats m hO 0 c).arrAt 2 (cfgM m hO).N = G :=
  (dats m hO 0 c).arrAt_eq_of_cover 2 G (flushed_eq m hO c G hG) (covered m hO c)

end Cert.Result

end
-- ==== Proof.Tail.lean ====
/-
  The program's result after the region. After the pipelined region the host adds up the sixteen scores the region
  left in its output array, starting from `0`, and divides the total by `16`: the result is the mean of the scores. Here
  that is read off the run: whatever the output array holds when the region ends, `G`, the result buffer holds
  `(0 + ∑ G) / 16` as the host operations compute it, and the three argument arrays are as launched.
-/
import proofs.«401918_j15994458211238_3_alg».proof.Proof.Gen.KernelIdeal.Frame
import Idealize.ShloMosaic.Lib.Pipeline.Value
import Idealize.ShloMosaic.Lib.StableHlo.Run

set_option maxRecDepth 16384

noncomputable section

namespace Cert.Tail

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The result buffer after the four host operations that follow the region, from the output array's final contents
    `G`: the sum of `G`'s sixteen entries from `0`, divided by `16`. -/
theorem result_value (hO : Ok m) (c : Dev nD) (G : Buf (Elt F) ((c : Thread nD τ).loc main_v2))
    (hG : (dats m hO 0 c).arrAt 2 (cfgM m hO).N = G) :
    Pipeline.afterTail pcfgs (fun _ => adm m hO) (dats m hO) 0 (V0 m) [hostOps1] c main_v4
      = Host.divf (Host.reduceAdd G (constant S_ .f32 0x00000000#32) reducesTo_S16_S_d0 h_S_)
          (constant S_ .f32 0x41800000#32) := by
  unfold Pipeline.afterTail
  show StableHlo.after hostOps1 _ (Proc.devRef .tc main_v4) = _
  after_results
  refine congrArg (fun g : (⟨S16, .f32⟩ : BufTy).Contents (Elt F) =>
    Host.divf (Host.reduceAdd g (constant S_ .f32 0x00000000#32) reducesTo_S16_S_d0 h_S_) (constant S_ .f32 0x41800000#32)) ?_
  exact (Pipeline.withArrays_arr spec0 winFacts0.arr_inj c _ _ 2).trans hG

/-- The run with the result named: every weakly fair execution of the program ends, and then on every core the result
    buffer holds the mean computed from the output array's final contents, and the three arguments are as launched. -/
theorem run_value (hO : Ok m) (G : (c : Dev nD) → Buf (Elt F) ((c : Thread nD τ).loc main_v2))
    (hG : ∀ c, (dats m hO 0 c).arrAt 2 (cfgM m hO).N = G c) :
    θ_run defs (onTc (τ := τ) (main (F := F))) ⟨m, fun _ => 0, ρ⟩ (fun r => ∀ c : Dev nD,
      r.2.mem ((c.tc : Thread nD τ).loc main_v4)
          = Host.divf (Host.reduceAdd (G c) (constant S_ .f32 0x00000000#32) reducesTo_S16_S_d0 h_S_)
              (constant S_ .f32 0x41800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (by decide : main_v4 ∈ Pipeline.restRefs sig spec0)).trans (result_value m hO c (G c) (hG c)),
      ((h c).2 main_arg0 (by decide : main_arg0 ∈ Pipeline.restRefs sig spec0)).trans (W_main_arg0 m hO (dats m hO) c),
      ((h c).1 1).trans (((dats m hO 0 c).arrAt_in 1 rfl _).trans ((A_eq m hO c 1).trans (V_main_arg1 m c))),
      ((h c).2 main_arg2 (by decide : main_arg2 ∈ Pipeline.restRefs sig spec0)).trans (W_main_arg2 m hO (dats m hO) c)⟩)
    (run_main m ρ hO)

end Cert.Tail

end
-- ==== Proof.RefGather.lean ====
/-
  Two operations of the reference that pick their element by a coordinate or by a value, each read at a point.

  A join of three [16, 200000, 1] arrays along the last axis reads, at last coordinate k, piece k. The gather
  "image[b, y, x]" over a [16, 512, 512] operand with a [16, 200000, 3] array of start indices reads, at (b, n),
  the operand at the three words found at (b, n, 0), (b, n, 1), (b, n, 2), each read as a signed number and held
  into the operand's range on its axis.
-/
import proofs.«401918_j15994458211238_3_alg».proof.ReferenceIdeal
import proofs.«401918_j15994458211238_3_alg».proof.Proof.Tally
import Idealize.ShloMosaic.Lib.ValueIdx
import Idealize.ShloMosaic.Lib.Pipeline.Value
import Idealize.ShloMosaic.Lib.StableHlo.Predicate

noncomputable section

namespace Cert.RefGather

open Idealize.ShloMosaic Idealize.ShloMosaic.ValueIdx Cert.ReferenceIdeal

/-! ## The three-piece join along the last axis -/

section Join
variable {α : Type}

/-- Every piece has extent one along the last axis, so the pieces before piece k take up k places: last
    coordinate k reads piece k, at the same first two coordinates. -/
theorem join3_apply (A B C : S16x200000x1.Idx → α)
    (h : Shape.Concatenates (([⟨S16x200000x1, A⟩, ⟨S16x200000x1, B⟩, ⟨S16x200000x1, C⟩] :
      List ((s : Shape) × (s.Idx → α))).map (·.1)) S16x200000x3 2)
    (b : Fin 16) (n : Fin 200000) :
    concatenate S16x200000x3 2 [⟨S16x200000x1, A⟩, ⟨S16x200000x1, B⟩, ⟨S16x200000x1, C⟩] h (ix3 b n (0 : Fin 3))
        = A (ix3 b n (0 : Fin 1)) ∧
    concatenate S16x200000x3 2 [⟨S16x200000x1, A⟩, ⟨S16x200000x1, B⟩, ⟨S16x200000x1, C⟩] h (ix3 b n (1 : Fin 3))
        = B (ix3 b n (0 : Fin 1)) ∧
    concatenate S16x200000x3 2 [⟨S16x200000x1, A⟩, ⟨S16x200000x1, B⟩, ⟨S16x200000x1, C⟩] h (ix3 b n (2 : Fin 3))
        = C (ix3 b n (0 : Fin 1)) := by
  have hoff : ∀ (k : Fin 3) (c : Fin (S16x200000x1).rank), c.cast (rfl : (S16x200000x1).rank = (S16x200000x3).rank) ≠ 2 →
      ((ix3 b n (0 : Fin 1) : S16x200000x1.Idx) c).val = ((ix3 b n k : S16x200000x3.Idx) (c.cast rfl)).val := by
    intro k c hc
    match c with
    | ⟨0, _⟩ => rfl
    | ⟨1, _⟩ => rfl
    | ⟨2, _⟩ => exact absurd rfl hc
  refine ⟨?_, ?_, ?_⟩
  · exact concatenate_apply_piece (2 : Fin 3) [⟨S16x200000x1, A⟩, ⟨S16x200000x1, B⟩, ⟨S16x200000x1, C⟩] h (ix3 b n (0 : Fin 3)) 0 (by simp) S16x200000x1 A rfl rfl 0 rfl (ix3 b n (0 : Fin 1)) (hoff 0) rfl
  · exact concatenate_apply_piece (2 : Fin 3) [⟨S16x200000x1, A⟩, ⟨S16x200000x1, B⟩, ⟨S16x200000x1, C⟩] h (ix3 b n (1 : Fin 3)) 1 (by simp) S16x200000x1 B rfl rfl 1 rfl (ix3 b n (0 : Fin 1)) (hoff 1) rfl
  · exact concatenate_apply_piece (2 : Fin 3) [⟨S16x200000x1, A⟩, ⟨S16x200000x1, B⟩, ⟨S16x200000x1, C⟩] h (ix3 b n (2 : Fin 3)) 2 (by simp) S16x200000x1 C rfl rfl 2 rfl (ix3 b n (0 : Fin 1)) (hoff 2) rfl

end Join

/-! ## The gather image[b, y, x] -/

section Gather
variable [Facts₀] {α : Type} {w : Nat}

/-- The dimension numbers of the gather, named shortly. -/
abbrev G3 : GatherDims S16x512x512 S16x200000x3 S16x200000 :=
  gather_S16x512x512_S16x200000x3_S16x200000_n_012_n_n_012_2_111

/-- On each of the operand's three axes the start component for result index (b, n) is the word at (b, n, axis). -/
theorem siIdx_eq (b : Fin 16) (n : Fin 200000) (a : Fin 3) (ha : a ∈ G3.startIndexMap) :
    G3.siIdx (ix2 b n) ⟨G3.startIndexMap.idxOf a, List.idxOf_lt_length_iff.2 ha⟩ = ix3 b n a := by
  funext c
  refine Fin.ext ?_
  match a, c with
  | ⟨0, _⟩, ⟨0, _⟩ => rfl
  | ⟨0, _⟩, ⟨1, _⟩ => rfl
  | ⟨0, _⟩, ⟨2, _⟩ => rfl
  | ⟨1, _⟩, ⟨0, _⟩ => rfl
  | ⟨1, _⟩, ⟨1, _⟩ => rfl
  | ⟨1, _⟩, ⟨2, _⟩ => rfl
  | ⟨2, _⟩, ⟨0, _⟩ => rfl
  | ⟨2, _⟩, ⟨1, _⟩ => rfl
  | ⟨2, _⟩, ⟨2, _⟩ => rfl

/-- Every axis of the operand is collapsed and none is a batching axis, so the operand index on an axis is the held
    start component alone. -/
theorem operandIdx_val (idx : IVec S16x200000x3 w) (b : Fin 16) (n : Fin 200000) (a : Fin 3) :
    ((G3.operandIdx (ix2 b n) idx) a).val
      = min (idx (ix3 b n a)).toInt.toNat ((S16x512x512).size a - 1) := by
  have hmem : a ∈ G3.startIndexMap := by
    match a with
    | ⟨0, _⟩ => exact List.mem_cons_self
    | ⟨1, _⟩ => exact List.mem_cons_of_mem _ List.mem_cons_self
    | ⟨2, _⟩ => exact List.mem_cons_of_mem _ (List.mem_cons_of_mem _ List.mem_cons_self)
  have hcoll : a ∈ G3.collapsedSliceDims := hmem
  show G3.start (ix2 b n) idx a + G3.batchCoord (ix2 b n) a + G3.offCoord (ix2 b n) a = _
  rw [GatherDims.batchCoord_eq_zero _ _ _ List.not_mem_nil,
    GatherDims.offCoord_eq_zero _ _ _ (fun h => ((GatherDims.mem_sKept _ _).mp h).1 hcoll)]
  simp only [Nat.add_zero]
  unfold GatherDims.start
  rw [dif_pos hmem, siIdx_eq b n a hmem, G3.slice_collapsed a hcoll]

/-- THE GATHER READ AT (b, n): the operand at the three words at (b, n, 0), (b, n, 1), (b, n, 2), each read signed
    and held into its axis. -/
theorem gather3_apply (x : S16x512x512.Idx → α) (idx : IVec S16x200000x3 w) (b : Fin 16) (n : Fin 200000) :
    Host.gather gather_S16x512x512_S16x200000x3_S16x200000_n_012_n_n_012_2_111 x idx (ix2 b n)
      = x (ix3 (⟨min (idx (ix3 b n (0 : Fin 3))).toInt.toNat 15, by omega⟩ : Fin 16)
               (⟨min (idx (ix3 b n (1 : Fin 3))).toInt.toNat 511, by omega⟩ : Fin 512)
               (⟨min (idx (ix3 b n (2 : Fin 3))).toInt.toNat 511, by omega⟩ : Fin 512)) := by
  unfold Host.gather
  congr 1
  funext a
  refine Fin.ext ?_
  match a with
  | ⟨0, _⟩ => exact operandIdx_val idx b n (0 : Fin 3)
  | ⟨1, _⟩ => exact operandIdx_val idx b n (1 : Fin 3)
  | ⟨2, _⟩ => exact operandIdx_val idx b n (2 : Fin 3)

end Gather

end Cert.RefGather

end
-- ==== Proof.RefWords.lean ====
/-
  Small facts about 32-bit words and truth values, used where a program wraps a negative index by the extent, holds an
  index to the last position, or turns a truth value into a number.

  A word below 2³¹ is not negative when read signed: it is not below zero, so an index wrapped only when negative is
  kept as it is; read signed it is its unsigned value, so holding it to a bound it does not exceed changes nothing.
  A truth value read unsigned as a number is 0 or 1, the same number its 32-bit extension read signed is.
-/
import proofs.«401918_j15994458211238_3_alg».proof.Proof.Tally
import Idealize.ShloMosaic.Lib.StableHlo.Predicate
import Idealize.ShloMosaic.Lib.ValueIdx
import Idealize.ShloMosaic.PureOps.Ideal.Laws

noncomputable section

namespace Cert.RefWords

open Idealize.ShloMosaic Idealize.ShloMosaic.ValueIdx

/-- A word below 2³¹ is not below zero as a signed number. -/
theorem slt_zero_of_lt (w : BitVec 32) (hw : w.toNat < 2 ^ 31) : IntOp.cmpi .slt w 0#32 = 0#1 := by
  refine eq_zero_of_ne_one fun h => ?_
  have h0 : w.toNat < (0#32 : BitVec 32).toNat :=
    (StableHlo.Predicate.slt_iff_toNat (a := w) (b := 0#32) hw (by decide)).mp h
  exact absurd h0 (Nat.not_lt_zero _)

/-- An index wrapped by k only when negative: a word below 2³¹ is kept. -/
theorem wrap_keep (w k : BitVec 32) (hw : w.toNat < 2 ^ 31) :
    Scalar.select (IntOp.cmpi .slt w 0#32) (IntOp.addi w k) w = w := by
  rw [slt_zero_of_lt w hw]
  exact select_zero _ _

/-- A word at most m, with m below 2³¹, read signed and held to m, is its unsigned value. -/
theorem hold_eq (w : BitVec 32) (m : Nat) (hw : w.toNat ≤ m) (hm : m < 2 ^ 31) : min w.toInt.toNat m = w.toNat := by
  rw [StableHlo.Predicate.toInt_eq_toNat_of_lt (a := w) (by omega), Int.toNat_natCast]
  exact Nat.min_eq_left hw

/-- A natural below 2³¹, made a word and read back, is itself. -/
theorem ofNat_toNat_small (a : Nat) (ha : a < 2 ^ 31) : (BitVec.ofNat 32 a).toNat = a := by
  rw [BitVec.toNat_ofNat]
  exact Nat.mod_eq_of_lt (by omega)

/-- A truth value read unsigned as an extended real is the 0/1 value of the tally. -/
theorem uitofp_bit' (t : BitVec 1) : (((t.toNat : ℝ) : EReal)) = Cert.Tally.bitR t := by
  rcases BitVec.eq_zero_or_eq_one t with rfl | rfl
  · rw [Cert.Tally.bitR_zero]
    show (((0 : ℕ) : ℝ) : EReal) = 0
    simp
  · rw [Cert.Tally.bitR_one]
    show (((1 : ℕ) : ℝ) : EReal) = 1
    simp

/-- The unsigned conversion of a truth value to a float, at the extended reals, is the 0/1 value of the tally. -/
theorem uitofp_bit (t : BitVec 1) : FloatOps.uitofp (F := Ideal) .f32 t = Cert.Tally.bitR t :=
  uitofp_bit' t

end Cert.RefWords

end
-- ==== Proof.RefScore.lean ====
/-
  The reference program's per-image score is the tally's score.

  The reference turns entries 0..3 of each comparison into coordinate words, wraps a negative word by the extent,
  reads the two pixels with a three-component gather (image, row, column), forms the two ratios, the verdict, the
  miss flag, the weight masked by the count, and divides the two sums over the comparisons. On the image every
  coordinate word is below 512 as an unsigned number: it is not negative, the wrap keeps it, and holding it into
  [0, 511] changes nothing, so each gathered value is the tally's pixel. Everything after the gathers is the tally's
  definition read stage by stage.
-/
import proofs.«401918_j15994458211238_3_alg».proof.Proof.Gen.ReferenceIdeal.Read
import proofs.«401918_j15994458211238_3_alg».proof.Proof.Tally
import proofs.«401918_j15994458211238_3_alg».proof.Proof.RefGather
import proofs.«401918_j15994458211238_3_alg».proof.Proof.RefWords
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.RefScore

open Idealize.ShloMosaic Idealize.ShloMosaic.ValueIdx Cert.ReferenceIdeal Cert.ReferenceIdeal.Read Cert.Tally
open Cert.RefWords Cert.RefGather

/-! ## Indices: a [16, 200000] position as a [16, 200000, 1] one, and an image position with its unit axis -/

theorem unflat3 (b : Fin 16) (n : Fin 200000) : idx_main_v3 (ix2 b n) = ix3 b n (0 : Fin 1) := by
  funext a
  have hb := b.isLt
  have hn := n.isLt
  match a with
  | ⟨0, _⟩ => exact Fin.ext (show (b.val * 200000 + n.val) / 200000 = b.val by omega)
  | ⟨1, _⟩ => exact Fin.ext (show (b.val * 200000 + n.val) / 1 % 200000 = n.val by omega)
  | ⟨2, _⟩ => rfl

theorem unflat5 (b : Fin 16) (n : Fin 200000) : idx_main_v5 (ix2 b n) = ix3 b n (0 : Fin 1) := by
  funext a
  have hb := b.isLt
  have hn := n.isLt
  match a with
  | ⟨0, _⟩ => exact Fin.ext (show (b.val * 200000 + n.val) / 200000 = b.val by omega)
  | ⟨1, _⟩ => exact Fin.ext (show (b.val * 200000 + n.val) / 1 % 200000 = n.val by omega)
  | ⟨2, _⟩ => rfl

theorem unflat7 (b : Fin 16) (n : Fin 200000) : idx_main_v7 (ix2 b n) = ix3 b n (0 : Fin 1) := by
  funext a
  have hb := b.isLt
  have hn := n.isLt
  match a with
  | ⟨0, _⟩ => exact Fin.ext (show (b.val * 200000 + n.val) / 200000 = b.val by omega)
  | ⟨1, _⟩ => exact Fin.ext (show (b.val * 200000 + n.val) / 1 % 200000 = n.val by omega)
  | ⟨2, _⟩ => rfl

theorem unflat9 (b : Fin 16) (n : Fin 200000) : idx_main_v9 (ix2 b n) = ix3 b n (0 : Fin 1) := by
  funext a
  have hb := b.isLt
  have hn := n.isLt
  match a with
  | ⟨0, _⟩ => exact Fin.ext (show (b.val * 200000 + n.val) / 200000 = b.val by omega)
  | ⟨1, _⟩ => exact Fin.ext (show (b.val * 200000 + n.val) / 1 % 200000 = n.val by omega)
  | ⟨2, _⟩ => rfl

theorem unflat11 (b : Fin 16) (n : Fin 200000) : idx_main_v11 (ix2 b n) = ix3 b n (0 : Fin 1) := by
  funext a
  have hb := b.isLt
  have hn := n.isLt
  match a with
  | ⟨0, _⟩ => exact Fin.ext (show (b.val * 200000 + n.val) / 200000 = b.val by omega)
  | ⟨1, _⟩ => exact Fin.ext (show (b.val * 200000 + n.val) / 1 % 200000 = n.val by omega)
  | ⟨2, _⟩ => rfl

theorem unflat14 (b : Fin 16) (n : Fin 200000) : idx_main_v14 (ix2 b n) = ix3 b n (0 : Fin 1) := by
  funext a
  have hb := b.isLt
  have hn := n.isLt
  match a with
  | ⟨0, _⟩ => exact Fin.ext (show (b.val * 200000 + n.val) / 200000 = b.val by omega)
  | ⟨1, _⟩ => exact Fin.ext (show (b.val * 200000 + n.val) / 1 % 200000 = n.val by omega)
  | ⟨2, _⟩ => rfl

theorem lift35 (b : Fin 16) (n : Fin 200000) : idx_main_v35 (ix3 b n (0 : Fin 1)) = ix2 b n := by
  funext a
  match a with
  | ⟨0, _⟩ => rfl
  | ⟨1, _⟩ => rfl

theorem lift36 (b : Fin 16) (n : Fin 200000) : idx_main_v36 (ix3 b n (0 : Fin 1)) = ix2 b n := by
  funext a
  match a with
  | ⟨0, _⟩ => rfl
  | ⟨1, _⟩ => rfl

theorem lift56 (b : Fin 16) (n : Fin 200000) : idx_main_v56 (ix3 b n (0 : Fin 1)) = ix2 b n := by
  funext a
  match a with
  | ⟨0, _⟩ => rfl
  | ⟨1, _⟩ => rfl

theorem lift57 (b : Fin 16) (n : Fin 200000) : idx_main_v57 (ix3 b n (0 : Fin 1)) = ix2 b n := by
  funext a
  match a with
  | ⟨0, _⟩ => rfl
  | ⟨1, _⟩ => rfl

/-- Position (b, y, x) of the image stack without its unit axis is position (b, 0, y, x) with it. -/
theorem img_idx (b : Fin 16) (y x : Fin 512) : idx_main_v15 (ix3 b y x) = ix4 b (0 : Fin 1) y x := by
  funext a
  have hb := b.isLt
  have hy := y.isLt
  have hx := x.isLt
  match a with
  | ⟨0, _⟩ => exact Fin.ext (show ((b.val * 512 + y.val) * 512 + x.val) / 262144 = b.val by omega)
  | ⟨1, _⟩ => rfl
  | ⟨2, _⟩ => exact Fin.ext (show ((b.val * 512 + y.val) * 512 + x.val) / 512 % 512 = y.val by omega)
  | ⟨3, _⟩ => exact Fin.ext (show ((b.val * 512 + y.val) * 512 + x.val) % 512 = x.val by omega)

/-- The gather read at (b, n), the operand position named by the caller. -/
theorem gather3_at {α : Type} (x : S16x512x512.Idx → α) (idx : IVec S16x200000x3 32) (b : Fin 16) (n : Fin 200000)
    (p : Fin 16) (y z : Fin 512)
    (hp : min (idx (ix3 b n (0 : Fin 3))).toInt.toNat 15 = p.val)
    (hy : min (idx (ix3 b n (1 : Fin 3))).toInt.toNat 511 = y.val)
    (hz : min (idx (ix3 b n (2 : Fin 3))).toInt.toNat 511 = z.val) :
    Host.gather gather_S16x512x512_S16x200000x3_S16x200000_n_012_n_n_012_2_111 x idx (ix2 b n) = x (ix3 p y z) := by
  rw [gather3_apply]
  congr 1
  funext a
  match a with
  | ⟨0, _⟩ => exact Fin.ext hp
  | ⟨1, _⟩ => exact Fin.ext hy
  | ⟨2, _⟩ => exact Fin.ext hz

section Point
variable (v : Img) (c : Cmp) (q : Cnt) (b : Fin 16) (n : Fin 200000)

/-! ## The words of a comparison -/

theorem v3_at : val_main_v3 (F := Ideal) c (ix2 b n) = word c b n 0 := by
  rw [val_main_v3_apply, unflat3, val_main_v2_apply, val_main_v1_apply, val_main_v0_apply]
  show Ideal.fptosi 32 (c _) = Ideal.fptosi 32 (c _)
  congr 2
  funext a
  match a with
  | ⟨0, _⟩ => rfl
  | ⟨1, _⟩ => rfl
  | ⟨2, _⟩ => rfl

theorem v5_at : val_main_v5 (F := Ideal) c (ix2 b n) = word c b n 1 := by
  rw [val_main_v5_apply, unflat5, val_main_v4_apply, val_main_v1_apply, val_main_v0_apply]
  show Ideal.fptosi 32 (c _) = Ideal.fptosi 32 (c _)
  congr 2
  funext a
  match a with
  | ⟨0, _⟩ => rfl
  | ⟨1, _⟩ => rfl
  | ⟨2, _⟩ => rfl

theorem v7_at : val_main_v7 (F := Ideal) c (ix2 b n) = word c b n 2 := by
  rw [val_main_v7_apply, unflat7, val_main_v6_apply, val_main_v1_apply, val_main_v0_apply]
  show Ideal.fptosi 32 (c _) = Ideal.fptosi 32 (c _)
  congr 2
  funext a
  match a with
  | ⟨0, _⟩ => rfl
  | ⟨1, _⟩ => rfl
  | ⟨2, _⟩ => rfl

theorem v9_at : val_main_v9 (F := Ideal) c (ix2 b n) = word c b n 3 := by
  rw [val_main_v9_apply, unflat9, val_main_v8_apply, val_main_v1_apply, val_main_v0_apply]
  show Ideal.fptosi 32 (c _) = Ideal.fptosi 32 (c _)
  congr 2
  funext a
  match a with
  | ⟨0, _⟩ => rfl
  | ⟨1, _⟩ => rfl
  | ⟨2, _⟩ => rfl

theorem v12_at : val_main_v12 (F := Ideal) c (ix2 b n) = word c b n 4 := by
  rw [val_main_v12_apply, val_main_v11_apply, unflat11, val_main_v10_apply]
  show Ideal.fptosi 32 (c _) = Ideal.fptosi 32 (c _)
  congr 2
  funext a
  match a with
  | ⟨0, _⟩ => rfl
  | ⟨1, _⟩ => rfl
  | ⟨2, _⟩ => rfl

theorem v14_at : val_main_v14 (F := Ideal) c (ix2 b n) = c (ix3 b n 5) := by
  rw [val_main_v14_apply, unflat14, val_main_v13_apply]
  congr 1
  funext a
  match a with
  | ⟨0, _⟩ => rfl
  | ⟨1, _⟩ => rfl
  | ⟨2, _⟩ => rfl

/-! ## The wrapped words: on the image the wrap keeps each -/

theorem v27_at (hc : OnImage c) : val_main_v27 (F := Ideal) c (ix2 b n) = word c b n 1 := by
  rw [val_main_v27_apply, val_main_v24_apply, val_main_v26_apply, val_main_v23_apply, val_main_v25_apply,
    val_main_c_1_apply, val_main_c_2_apply, v5_at]
  have h := hc b n 1 (by decide)
  exact wrap_keep _ _ (by omega)

theorem v32_at (hc : OnImage c) : val_main_v32 (F := Ideal) c (ix2 b n) = word c b n 0 := by
  rw [val_main_v32_apply, val_main_v29_apply, val_main_v31_apply, val_main_v28_apply, val_main_v30_apply,
    val_main_c_3_apply, val_main_c_4_apply, v3_at]
  have h := hc b n 0 (by decide)
  exact wrap_keep _ _ (by omega)

theorem v48_at (hc : OnImage c) : val_main_v48 (F := Ideal) c (ix2 b n) = word c b n 3 := by
  rw [val_main_v48_apply, val_main_v45_apply, val_main_v47_apply, val_main_v44_apply, val_main_v46_apply,
    val_main_c_7_apply, val_main_c_8_apply, v9_at]
  have h := hc b n 3 (by decide)
  exact wrap_keep _ _ (by omega)

theorem v53_at (hc : OnImage c) : val_main_v53 (F := Ideal) c (ix2 b n) = word c b n 2 := by
  rw [val_main_v53_apply, val_main_v50_apply, val_main_v52_apply, val_main_v49_apply, val_main_v51_apply,
    val_main_c_9_apply, val_main_c_10_apply, v7_at]
  have h := hc b n 2 (by decide)
  exact wrap_keep _ _ (by omega)

theorem v34_at : val_main_v34 (F := Ideal) (ix3 b n (0 : Fin 1)) = BitVec.ofNat 32 b.val := by
  rw [val_main_v34_apply, val_main_v33_apply, val_main_v22_apply, val_main_v19_apply, val_main_v21_apply,
    val_main_v18_apply, val_main_v20_apply, val_main_c_apply, val_main_c_0_apply, val_main_v17_apply,
    val_main_v16_apply]
  show Scalar.select (IntOp.cmpi .slt (BitVec.ofNat 32 b.val) 0#32) (IntOp.addi (BitVec.ofNat 32 b.val) 16#32)
    (BitVec.ofNat 32 b.val) = BitVec.ofNat 32 b.val
  have hb := b.isLt
  exact wrap_keep _ _ (by rw [ofNat_toNat_small _ (by omega)]; omega)

theorem v55_at : val_main_v55 (F := Ideal) (ix3 b n (0 : Fin 1)) = BitVec.ofNat 32 b.val := by
  rw [val_main_v55_apply, val_main_v54_apply, val_main_v43_apply, val_main_v40_apply, val_main_v42_apply,
    val_main_v39_apply, val_main_v41_apply, val_main_c_5_apply, val_main_c_6_apply, val_main_v17_apply,
    val_main_v16_apply]
  show Scalar.select (IntOp.cmpi .slt (BitVec.ofNat 32 b.val) 0#32) (IntOp.addi (BitVec.ofNat 32 b.val) 16#32)
    (BitVec.ofNat 32 b.val) = BitVec.ofNat 32 b.val
  have hb := b.isLt
  exact wrap_keep _ _ (by rw [ofNat_toNat_small _ (by omega)]; omega)

/-! ## The two start-index arrays and the two gathers -/

theorem v37_at0 : val_main_v37 (F := Ideal) c (ix3 b n (0 : Fin 3)) = BitVec.ofNat 32 b.val := by
  unfold val_main_v37
  rw [(join3_apply _ _ _ _ b n).1, v34_at]

theorem v37_at1 (hc : OnImage c) : val_main_v37 (F := Ideal) c (ix3 b n (1 : Fin 3)) = word c b n 1 := by
  unfold val_main_v37
  rw [(join3_apply _ _ _ _ b n).2.1, val_main_v35_apply, lift35, v27_at c b n hc]

theorem v37_at2 (hc : OnImage c) : val_main_v37 (F := Ideal) c (ix3 b n (2 : Fin 3)) = word c b n 0 := by
  unfold val_main_v37
  rw [(join3_apply _ _ _ _ b n).2.2, val_main_v36_apply, lift36, v32_at c b n hc]

theorem v58_at0 : val_main_v58 (F := Ideal) c (ix3 b n (0 : Fin 3)) = BitVec.ofNat 32 b.val := by
  unfold val_main_v58
  rw [(join3_apply _ _ _ _ b n).1, v55_at]

theorem v58_at1 (hc : OnImage c) : val_main_v58 (F := Ideal) c (ix3 b n (1 : Fin 3)) = word c b n 3 := by
  unfold val_main_v58
  rw [(join3_apply _ _ _ _ b n).2.1, val_main_v56_apply, lift56, v48_at c b n hc]

theorem v58_at2 (hc : OnImage c) : val_main_v58 (F := Ideal) c (ix3 b n (2 : Fin 3)) = word c b n 2 := by
  unfold val_main_v58
  rw [(join3_apply _ _ _ _ b n).2.2, val_main_v57_apply, lift57, v53_at c b n hc]

theorem v38_at (hc : OnImage c) : val_main_v38 (F := Ideal) v c (ix2 b n) = first v c b n := by
  unfold val_main_v38
  have hy := hc b n 1 (by decide)
  have hx := hc b n 0 (by decide)
  have hb := b.isLt
  have eb := ofNat_toNat_small b.val (by omega)
  refine (gather3_at _ _ b n b ⟨min (word c b n 1).toNat 511, by omega⟩ ⟨min (word c b n 0).toNat 511, by omega⟩
    ?_ ?_ ?_).trans ?_
  · rw [v37_at0, hold_eq _ 15 (by rw [eb]; omega) (by norm_num), eb]
  · rw [v37_at1 c b n hc]
    show min (word c b n 1).toInt.toNat 511 = min (word c b n 1).toNat 511
    rw [hold_eq _ 511 (by omega) (by norm_num)]
    omega
  · rw [v37_at2 c b n hc]
    show min (word c b n 0).toInt.toNat 511 = min (word c b n 0).toNat 511
    rw [hold_eq _ 511 (by omega) (by norm_num)]
    omega
  · rw [val_main_v15_apply, img_idx]
    rfl

theorem v59_at (hc : OnImage c) : val_main_v59 (F := Ideal) v c (ix2 b n) = second v c b n := by
  unfold val_main_v59
  have hy := hc b n 3 (by decide)
  have hx := hc b n 2 (by decide)
  have hb := b.isLt
  have eb := ofNat_toNat_small b.val (by omega)
  refine (gather3_at _ _ b n b ⟨min (word c b n 3).toNat 511, by omega⟩ ⟨min (word c b n 2).toNat 511, by omega⟩
    ?_ ?_ ?_).trans ?_
  · rw [v58_at0, hold_eq _ 15 (by rw [eb]; omega) (by norm_num), eb]
  · rw [v58_at1 c b n hc]
    show min (word c b n 3).toInt.toNat 511 = min (word c b n 3).toNat 511
    rw [hold_eq _ 511 (by omega) (by norm_num)]
    omega
  · rw [v58_at2 c b n hc]
    show min (word c b n 2).toInt.toNat 511 = min (word c b n 2).toNat 511
    rw [hold_eq _ 511 (by omega) (by norm_num)]
    omega
  · rw [val_main_v15_apply, img_idx]
    rfl

/-! ## The verdict, the miss flag, the live flag and the weights -/

theorem v71_at (hc : OnImage c) :
    val_main_v71 (F := Ideal) v c (ix2 b n) = verdict (first v c b n) (second v c b n) := by
  simp only [val_main_v71_apply, val_main_v70_apply, val_main_v64_apply, val_main_v69_apply, val_main_v62_apply,
    val_main_v67_apply, val_main_v61_apply, val_main_v66_apply, val_main_v60_apply, val_main_v63_apply,
    val_main_v65_apply, val_main_v68_apply, val_main_cst_apply, val_main_cst_11_apply, val_main_cst_12_apply,
    val_main_cst_13_apply, val_main_call0_v0_apply, val_main_call0_v1_apply, val_main_call1_v0_apply,
    val_main_c_14_apply, val_main_c_15_apply, val_main_c_16_apply, v38_at v c b n hc, v59_at v c b n hc]
  rfl

theorem v74_at (hc : OnImage c) : val_main_v74 (F := Ideal) v c (ix2 b n) = miss v c b n := by
  rw [val_main_v74_apply, val_main_v73_apply, val_main_v72_apply, v71_at v c b n hc, v12_at, uitofp_bit]
  rfl

/-- The count of image b, read through its two broadcasts. -/
theorem cnt_idx : idx_main_v77 (idx_main_v79 (ix2 b n)) = ix1 b := by
  funext a
  match a with
  | ⟨0, _⟩ => rfl

theorem v81_at : val_main_v81 (F := Ideal) q (ix2 b n) = live (q (ix1 b)) n := by
  rw [val_main_v81_apply, val_main_v80_apply, val_main_v78_apply, val_main_v76_apply, val_main_v75_apply,
    val_main_v79_apply, val_main_v77_apply, cnt_idx, uitofp_bit]
  rfl

theorem v82_at : val_main_v82 (F := Ideal) c q (ix2 b n) = wt c (q (ix1 b)) b n := by
  rw [val_main_v82_apply, v14_at, v81_at]
  rfl

theorem v83_at (hc : OnImage c) : val_main_v83 (F := Ideal) v c q (ix2 b n) = wtm v c (q (ix1 b)) b n := by
  rw [val_main_v83_apply, v82_at, v74_at v c b n hc]
  rfl

end Point

/-! ## The two sums and the quotient -/

/-- The reference's per-image score is the tally's. -/
theorem score_eq (v : Img) (c : Cmp) (q : Cnt) (hc : OnImage c) :
    Cert.ReferenceIdeal.Read.val_main_v86 (F := Ideal) v c q = score v c q := by
  funext i
  have hi : ∀ k : Fin 200000, idx_main_v84 i k = ix2 (i 0) k := by
    intro k
    funext a
    match a with
    | ⟨0, _⟩ => rfl
    | ⟨1, _⟩ => rfl
  have h84 : ∀ k : Fin 200000,
      val_main_v83 (F := Ideal) v c q (idx_main_v84 i k) = wtm v c (q (ix1 (i 0))) (i 0) k := by
    intro k
    rw [hi k]
    exact v83_at v c q (i 0) k hc
  have h85 : ∀ k : Fin 200000,
      val_main_v82 (F := Ideal) c q (idx_main_v85 i k) = wt c (q (ix1 (i 0))) (i 0) k := by
    intro k
    rw [show idx_main_v85 i k = ix2 (i 0) k from hi k]
    exact v82_at c q (i 0) k
  rw [val_main_v86_apply, val_main_v84_apply, val_main_v85_apply, val_main_cst_17_apply, val_main_cst_18_apply]
  simp only [h84, h85]
  show Ideal.div (Ideal.ofBits .f32 0x00000000#32 + _) (Ideal.ofBits .f32 0x00000000#32 + _) = _
  rw [Ideal.ofBits_zero_f32, zero_add, zero_add]
  rfl

end Cert.RefScore

end
-- ==== Proof.lean ====
/-
  Weighted miss rate of pairwise pixel comparisons: the kernel against its reference, over the extended reals.

  For each of 16 images both programs take 200000 comparisons — two pixel positions, a label and a weight each —,
  decide for every comparison whether the second pixel exceeds the first by the ratio 1.1, the first the second, or
  neither, call it a miss when that verdict differs from the label, and return the mean over the images of
  (live weight of the misses) / (live weight), where only an image's first `count` comparisons are live.

  The reference gathers the two pixels by index. The kernel instead multiplies a 0/1 selector of the column by the
  transposed image on the matrix unit and sums the product against a 0/1 selector of the row: with the coordinates on
  the image exactly one term of each sum survives, and it is the gathered pixel. The kernel then sums the weights a
  thousand comparisons at a time and keeps two 16-lane running sums across its 16 × 200 grid points, adding each
  point's partial sums to the lane of the point's image; after the last point it stores the lanewise quotient. Over
  the extended reals addition is commutative and associative without exception and `0 · x = 0` for every `x`, so
  the running sums are the reference's two row sums whatever the order, and no finiteness is used. Both programs end
  with the same sum of the sixteen scores divided by sixteen.

  The statement carries one added precondition: the four coordinates of every comparison, as integers, lie in
  `[0, 512)`. Outside it the reference's gather indexes off the image (and holds the index back to the edge), while
  the kernel's selectors select nothing and read `0`.
-/
import proofs.«401918_j15994458211238_3_alg».proof.Defs
import proofs.«401918_j15994458211238_3_alg».proof.Proof.Gen.Kernel
import proofs.«401918_j15994458211238_3_alg».proof.Proof.Gen.Kernel.Frame
import proofs.«401918_j15994458211238_3_alg».proof.Proof.Gen.KernelIdeal
import proofs.«401918_j15994458211238_3_alg».proof.Proof.Gen.KernelIdeal.Frame
import proofs.«401918_j15994458211238_3_alg».proof.Proof.Gen.ReferenceIdeal
import proofs.«401918_j15994458211238_3_alg».proof.Proof.Gen.ReferenceIdeal.Run
import proofs.«401918_j15994458211238_3_alg».proof.Proof.Gen.ReferenceIdeal.Read
import proofs.«401918_j15994458211238_3_alg».proof.Proof.Gen.Pre_finite_inputs
import proofs.«401918_j15994458211238_3_alg».proof.Proof.OnImageOfPre
import proofs.«401918_j15994458211238_3_alg».proof.Proof.Totals
import proofs.«401918_j15994458211238_3_alg».proof.Proof.Result
import proofs.«401918_j15994458211238_3_alg».proof.Proof.Tail
import proofs.«401918_j15994458211238_3_alg».proof.Proof.RefScore
import Idealize.ShloMosaic.Adequacy
import Idealize.ShloMosaic.Init

noncomputable section

namespace Cert.Proof

open Idealize.ShloMosaic Idealize.ShloMosaic.TcCoe Idealize.SL.Sem Cert.Tally

/-- The three frames: the kernel's two from its generated frame (its index maps read no table, so the side condition
    on the tables is void), the reference's from its run with the result dropped. -/
theorem frame_k : Cert.frame_Kernel := fun m ρ _ => Cert.Kernel.Gen.frame m ρ trivial
theorem frame_ki : Cert.frame_KernelIdeal := fun m ρ _ => Cert.KernelIdeal.Gen.frame m ρ trivial
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the mean of the sixteen scores of the same three arrays. -/
theorem algebraic : Cert.algebraic_KernelIdeal_ReferenceIdeal := by
  intro m ρ m' ρ' hpre hagree
  have hc : ∀ c : Dev Cert.KernelIdeal.nD, OnImage (Cert.Totals.cmps m c) := fun c =>
    Cert.Domain.onImage_of_pre _ _ _ (hpre c)
  refine ⟨_, Cert.Tail.run_value m ρ trivial
    (fun c => score (Cert.Totals.imgs m c) (Cert.Totals.cmps m c) (Cert.Totals.cnts m c))
    (fun c => Cert.Result.final_out m trivial c _ fun t ht => Cert.Totals.out_scores m trivial c (hc c) t ht), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v88_eq, (hagree c).1, (hagree c).2.1, (hagree c).2.2]
  unfold Cert.ReferenceIdeal.Read.val_main_v88 Cert.ReferenceIdeal.Read.val_main_v87
  rw [Cert.RefScore.score_eq _ _ _ (hc c)]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
